-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x64 : Shape := ⟨2, ![640000, 64]⟩
abbrev S2048 : Shape := ⟨1, ![2048]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part2 {F : FTy → Type} [FloatOps F] (main_arg10 : FVec F S256 .f32) (main_arg11 : FVec F S1x256 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1x256 .f32 := Host.absf main_arg11
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  main_v43

def fn_part1 {F : FTy → Type} [FloatOps F] (main_arg7 : FVec F S128x256 .f32) (main_arg8 : FVec F S256 .f32) (main_arg9 : FVec F S256x256 .f32) (main_arg10 : FVec F S256 .f32) (main_arg11 : FVec F S1x256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg7
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_arg11 main_v33

def fn {F : FTy → Type} [FloatOps F] (main_arg0 : FVec F S40000x128 .f32) (main_arg1 : IVec S2x640000 32) (main_arg2 : FVec F S640000x64 .f32) (main_arg3 : IVec S2048 32) (main_arg4 : IVec S2048 32) (main_arg5 : FVec F S64x128 .f32) (main_arg6 : FVec F S128 .f32) (main_arg7 : FVec F S128x256 .f32) (main_arg8 : FVec F S256 .f32) (main_arg9 : FVec F S256x256 .f32) (main_arg10 : FVec F S256 .f32) (main_arg11 : FVec F S1x256 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_v13 main_v16
-- ==== Kernel.lean ====
abbrev S40000x128 : Shape := ⟨2, ![40000, 128]⟩
abbrev S2x640000 : Shape := ⟨2, ![2, 640000]⟩
abbrev S640000x64 : Shape := ⟨2, ![640000, 64]⟩
abbrev S2048 : Shape := ⟨1, ![2048]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S8000x128 : Shape := ⟨2, ![8000, 128]⟩
abbrev S8000x64 : Shape := ⟨2, ![8000, 64]⟩
abbrev S40000x256 : Shape := ⟨2, ![40000, 256]⟩
abbrev S5000x128 : Shape := ⟨2, ![5000, 128]⟩
abbrev S5000x256 : Shape := ⟨2, ![5000, 256]⟩
abbrev S2048x1 : Shape := ⟨2, ![2048, 1]⟩
abbrev S2048x256 : Shape := ⟨2, ![2048, 256]⟩
abbrev S1x1 : Shape := ⟨2, ![1, 1]⟩
abbrev S1 : Shape := ⟨1, ![1]⟩

abbrev nBuf : Space → Nat
  | .hbm => 55
  | .vmem => 23
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x64, .f32⟩
  | .hbm, ⟨3, _⟩ => ⟨S2048, .i32⟩
  | .hbm, ⟨4, _⟩ => ⟨S2048, .i32⟩
  | .hbm, ⟨5, _⟩ => ⟨S64x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x256, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S1x128, .f32⟩
  | .hbm, ⟨26, _⟩ => ⟨S640000x128, .f32⟩
  | .hbm, ⟨27, _⟩ => ⟨S_, .f32⟩
  | .hbm, ⟨28, _⟩ => ⟨S40000x128, .f32⟩
  | .hbm, ⟨29, _⟩ => ⟨S640000x1, .i32⟩
  | .hbm, ⟨30, _⟩ => ⟨S40000x128, .f32⟩
  | .hbm, ⟨31, _⟩ => ⟨S1x256, .f32⟩
  | .hbm, ⟨32, _⟩ => ⟨S1x256, .f32⟩
  | .hbm, ⟨33, _⟩ => ⟨S40000x256, .f32⟩
  | .hbm, ⟨34, _⟩ => ⟨S1x256, .f32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S2048x1, .i32⟩
  | .hbm, ⟨43, _⟩ => ⟨S2048x256, .f32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S2048x256, .f32⟩
  | .hbm, ⟨53, _⟩ => ⟨S1x1, .f32⟩
  | .hbm, ⟨54, _⟩ => ⟨S_, .f32⟩
  | .local _ .vmem, ⟨0, _⟩ => ⟨S8000x128, .f32⟩
  | .local _ .vmem, ⟨1, _⟩ => ⟨S8000x128, .f32⟩
  | .local _ .vmem, ⟨2, _⟩ => ⟨S8000x64, .f32⟩
  | .local _ .vmem, ⟨3, _⟩ => ⟨S8000x64, .f32⟩
  | .local _ .vmem, ⟨4, _⟩ => ⟨S64x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S1x256, .f32⟩
  | .local _ .vmem, ⟨19, _⟩ => ⟨S2048x256, .f32⟩
  | .local _ .vmem, ⟨20, _⟩ => ⟨S2048x256, .f32⟩
  | .local _ .vmem, ⟨21, _⟩ => ⟨S1x256, .f32⟩
  | .local _ .vmem, ⟨22, _⟩ => ⟨S1x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  inb_S8000x64_S8000x64_0_0 : ∀ a, (![0, 0] : Fin 2 → Nat) a + S8000x64.size a ≤ S8000x64.size a
  h_S8000x64 : 0 < S8000x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S40000x128 : S_.BroadcastsInDim S40000x128 (![] : Fin 0 → Fin S40000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S5000x256_S5000x256_0_0 : ∀ a, (![0, 0] : Fin 2 → Nat) a + S5000x256.size a ≤ S5000x256.size a
  h_S5000x256 : 0 < S5000x256.numel
  slices_S40000x256_S1x256_0_0 : S40000x256.Slices ![0, 0] S1x256
  bcast_S_S2048 : S_.BroadcastsInDim S2048 (![] : Fin 0 → Fin S2048.rank)
  bcast_S2048_S2048x1_0 : S2048.BroadcastsInDim S2048x1 (![0] : Fin 1 → Fin S2048x1.rank)
  reduces_S1x256_S1 : S1x256.Reduces [1] S1
  shapeCasts_S1_S1x1 : S1.ShapeCasts S1x1
  broadcasts_S1x1_S1x256 : S1x1.Broadcasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  broadcasts_S1x256_S2048x256 : S1x256.Broadcasts S2048x256
  reduces_S2048x1_S1 : S2048x1.Reduces [0] S1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S40000x128_S640000x1_S640000x128_1_0_n_n_0_1_1128_wf : GatherDims.WF S40000x128 S640000x1 S640000x128 [1] [0] [] [0] [] 1 ![1, 128]
  dot_S8000x64_S64x128_S8000x128_1_0_0_1_n_n_wf : DotDims.WF S8000x64 S64x128 S8000x128 [1] [0] [0] [1] [] []
  scatter_S40000x128_S640000x1_S640000x128_1_0_0_1_wf : ScatterDims.WF S40000x128 S640000x1 S640000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  gather_S40000x256_S2048x1_S2048x256_1_0_n_n_0_1_1256_wf : GatherDims.WF S40000x256 S2048x1 S2048x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S640000x64.size a
  hwx0_1 : ∀ i : grid0.Coords, EltTy.bits .f32 = 32 ∨ (Rect.block (s := S640000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S640000x128.size a
  hwx0_4 : ∀ i : grid0.Coords, EltTy.bits .f32 = 32 ∨ (Rect.block (s := S640000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S40000x256.size a
  hwx1_6 : ∀ i : grid1.Coords, EltTy.bits .f32 = 32 ∨ (Rect.block (s := S40000x256) S5000x256.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x256.size a ≤ S1x256.size a
  hwx2_0 : ∀ i : grid2.Coords, EltTy.bits .f32 = 32 ∨ (Rect.block (s := S1x256) S1x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x256.size a
  hwx2_1 : ∀ i : grid2.Coords, EltTy.bits .f32 = 32 ∨ (Rect.block (s := S2048x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S2048x256.size a
  hwx2_2 : ∀ i : grid2.Coords, EltTy.bits .f32 = 32 ∨ (Rect.block (s := S2048x256) S2048x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S40000x256_S2048x1_S2048x256_1_0_n_n_0_1_1256 : GatherDims S40000x256 S2048x1 S2048x256 where
  offsetDims := [1]
  collapsedSliceDims := [0]
  operandBatchingDims := []
  startIndicesBatchingDims := []
  startIndexMap := [0]
  indexVectorDim := 1
  sliceSizes := ![1, 256]
  wf := gather_S40000x256_S2048x1_S2048x256_1_0_n_n_0_1_1256_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v19) S1x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2048x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S2048x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x64 : Shape := ⟨2, ![640000, 64]⟩
abbrev S2048 : Shape := ⟨1, ![2048]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S1x640000 : Shape := ⟨2, ![1, 640000]⟩
abbrev S640000 : Shape := ⟨1, ![640000]⟩
abbrev S640000x128 : Shape := ⟨2, ![640000, 128]⟩
abbrev S1x128 : Shape := ⟨2, ![1, 128]⟩
abbrev S_ : Shape := ⟨0, ![]⟩
abbrev S640000x1 : Shape := ⟨2, ![640000, 1]⟩
abbrev S40000x256 : Shape := ⟨2, ![40000, 256]⟩
abbrev S1 : Shape := ⟨1, ![1]⟩
abbrev S2048x1 : Shape := ⟨2, ![2048, 1]⟩
abbrev S2048x256 : Shape := ⟨2, ![2048, 256]⟩
abbrev S1x1 : Shape := ⟨2, ![1, 1]⟩

abbrev nBuf : Space → Nat
  | .hbm => 180
  | .vmem => 0
  | .smem => 0
  | _ => 0

abbrev hbmTy0_0 (i : Nat) : BufTy := match i % 128 with
  | 0 => ⟨S40000x128, .f32⟩
  | 1 => ⟨S2x640000, .i32⟩
  | 2 => ⟨S640000x64, .f32⟩
  | 3 => ⟨S2048, .i32⟩
  | 4 => ⟨S2048, .i32⟩
  | 5 => ⟨S64x128, .f32⟩
  | 6 => ⟨S128, .f32⟩
  | 7 => ⟨S128x256, .f32⟩
  | 8 => ⟨S256, .f32⟩
  | 9 => ⟨S256x256, .f32⟩
  | 10 => ⟨S256, .f32⟩
  | 11 => ⟨S1x256, .f32⟩
  | 12 => ⟨S1x640000, .i32⟩
  | 13 => ⟨S640000, .i32⟩
  | 14 => ⟨S1x640000, .i32⟩
  | 15 => ⟨S640000, .i32⟩
  | 16 => ⟨S640000x128, .f32⟩
  | 17 => ⟨S1x128, .f32⟩
  | 18 => ⟨S640000x128, .f32⟩
  | 19 => ⟨S640000x128, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S640000x128, .f32⟩
  | 30 => ⟨S_, .f32⟩
  | 31 => ⟨S640000x128, .f32⟩
  | 32 => ⟨S640000x128, .f32⟩
  | 33 => ⟨S_, .f32⟩
  | 34 => ⟨S40000x128, .f32⟩
  | 35 => ⟨S640000x1, .i32⟩
  | 36 => ⟨S40000x128, .f32⟩
  | 37 => ⟨S_, .f32⟩
  | 38 => ⟨S40000x128, .f32⟩
  | 39 => ⟨S40000x128, .f32⟩
  | 40 => ⟨S40000x128, .f32⟩
  | 41 => ⟨S40000x256, .f32⟩
  | 42 => ⟨S1x256, .f32⟩
  | 43 => ⟨S40000x256, .f32⟩
  | 44 => ⟨S40000x256, .f32⟩
  | 45 => ⟨S_, .f32⟩
  | 46 => ⟨S40000x256, .f32⟩
  | 47 => ⟨S40000x256, .f32⟩
  | 48 => ⟨S40000x256, .f32⟩
  | 49 => ⟨S1x256, .f32⟩
  | 50 => ⟨S40000x256, .f32⟩
  | 51 => ⟨S40000x256, .f32⟩
  | 52 => ⟨S1x256, .f32⟩
  | 53 => ⟨S256, .f32⟩
  | 54 => ⟨S256, .f32⟩
  | 55 => ⟨S_, .f32⟩
  | 56 => ⟨S_, .f32⟩
  | 57 => ⟨S1, .f32⟩
  | 58 => ⟨S1, .f32⟩
  | 59 => ⟨S_, .f32⟩
  | 60 => ⟨S1, .f32⟩
  | 61 => ⟨S1, .f32⟩
  | 62 => ⟨S256, .f32⟩
  | 63 => ⟨S256, .f32⟩
  | 64 => ⟨S_, .i32⟩
  | 65 => ⟨S2048, .i32⟩
  | 66 => ⟨S2048, .i1⟩
  | 67 => ⟨S_, .i32⟩
  | 68 => ⟨S2048, .i32⟩
  | 69 => ⟨S2048, .i32⟩
  | 70 => ⟨S2048, .i32⟩
  | 71 => ⟨S2048x1, .i32⟩
  | 72 => ⟨S2048x256, .f32⟩
  | 73 => ⟨S2048x256, .f32⟩
  | 74 => ⟨S_, .f32⟩
  | 75 => ⟨S2048, .f32⟩
  | 76 => ⟨S2048x1, .f32⟩
  | 77 => ⟨S2048x1, .f32⟩
  | 78 => ⟨S_, .f32⟩
  | 79 => ⟨S2048x1, .f32⟩
  | 80 => ⟨S2048x1, .f32⟩
  | 81 => ⟨S2048x256, .f32⟩
  | 82 => ⟨S2048x256, .f32⟩
  | 83 => ⟨S_, .i32⟩
  | 84 => ⟨S2048, .i32⟩
  | 85 => ⟨S2048, .i1⟩
  | 86 => ⟨S_, .i32⟩
  | 87 => ⟨S2048, .i32⟩
  | 88 => ⟨S2048, .i32⟩
  | 89 => ⟨S2048, .i32⟩
  | 90 => ⟨S2048x1, .i32⟩
  | 91 => ⟨S2048x256, .f32⟩
  | 92 => ⟨S2048x256, .f32⟩
  | 93 => ⟨S_, .f32⟩
  | 94 => ⟨S2048, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x256, .f32⟩
  | 101 => ⟨S2048x256, .f32⟩
  | 102 => ⟨S1x256, .f32⟩
  | 103 => ⟨S_, .f32⟩
  | 104 => ⟨S1, .f32⟩
  | 105 => ⟨S1x1, .f32⟩
  | 106 => ⟨S1x1, .f32⟩
  | 107 => ⟨S_, .f32⟩
  | 108 => ⟨S1x1, .f32⟩
  | 109 => ⟨S1x1, .f32⟩
  | 110 => ⟨S1x256, .f32⟩
  | 111 => ⟨S1x256, .f32⟩
  | 112 => ⟨S1x256, .f32⟩
  | 113 => ⟨S2048x256, .f32⟩
  | 114 => ⟨S2048x256, .f32⟩
  | 115 => ⟨S_, .f32⟩
  | 116 => ⟨S2048, .f32⟩
  | 117 => ⟨S_, .f32⟩
  | 118 => ⟨S_, .f32⟩
  | 119 => ⟨S_, .f32⟩
  | 120 => ⟨S_, .f32⟩
  | 121 => ⟨S1x256, .f32⟩
  | 122 => ⟨S2048x256, .f32⟩
  | 123 => ⟨S2048x256, .f32⟩
  | 124 => ⟨S_, .f32⟩
  | 125 => ⟨S2048, .f32⟩
  | 126 => ⟨S_, .f32⟩
  | 127 => ⟨S_, .f32⟩
  | _ => ⟨S40000x128, .f32⟩

abbrev hbmTy0_1 (i : Nat) : BufTy := match i % 128 with
  | 0 => ⟨S_, .f32⟩
  | 1 => ⟨S_, .f32⟩
  | 2 => ⟨S1x256, .f32⟩
  | 3 => ⟨S1x256, .f32⟩
  | 4 => ⟨S_, .f32⟩
  | 5 => ⟨S1, .f32⟩
  | 6 => ⟨S1, .f32⟩
  | 7 => ⟨S1, .f32⟩
  | 8 => ⟨S_, .f32⟩
  | 9 => ⟨S1, .f32⟩
  | 10 => ⟨S1, .f32⟩
  | 11 => ⟨S1, .f32⟩
  | 12 => ⟨S1, .f32⟩
  | 13 => ⟨S_, .f32⟩
  | 14 => ⟨S1, .f32⟩
  | 15 => ⟨S1, .f32⟩
  | 16 => ⟨S_, .f32⟩
  | 17 => ⟨S1, .f32⟩
  | 18 => ⟨S1, .f32⟩
  | 19 => ⟨S_, .f32⟩
  | 20 => ⟨S_, .f32⟩
  | 21 => ⟨S1, .f32⟩
  | 22 => ⟨S1, .f32⟩
  | 23 => ⟨S1, .f32⟩
  | 24 => ⟨S_, .f32⟩
  | 25 => ⟨S_, .f32⟩
  | 26 => ⟨S_, .f32⟩
  | 27 => ⟨S_, .f32⟩
  | 28 => ⟨S1, .f32⟩
  | 29 => ⟨S1, .f32⟩
  | 30 => ⟨S_, .f32⟩
  | 31 => ⟨S1, .f32⟩
  | 32 => ⟨S1, .f32⟩
  | 33 => ⟨S1, .f32⟩
  | 34 => ⟨S1, .f32⟩
  | 35 => ⟨S_, .f32⟩
  | 36 => ⟨S1, .f32⟩
  | 37 => ⟨S1, .f32⟩
  | 38 => ⟨S_, .f32⟩
  | 39 => ⟨S1, .f32⟩
  | 40 => ⟨S1, .f32⟩
  | 41 => ⟨S_, .f32⟩
  | 42 => ⟨S_, .f32⟩
  | 43 => ⟨S1, .f32⟩
  | 44 => ⟨S1, .f32⟩
  | 45 => ⟨S1, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_3 : Ref sig .tc := ⟨.hbm, 64, rfl⟩
abbrev main_v39 : Ref sig .tc := ⟨.hbm, 65, rfl⟩
abbrev main_v40 : Ref sig .tc := ⟨.hbm, 66, rfl⟩
abbrev main_c_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_call3_v2 : Ref sig .tc := ⟨.hbm, 76, rfl⟩
abbrev main_v46 : Ref sig .tc := ⟨.hbm, 77, rfl⟩
abbrev main_cst_5 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_6 : Ref sig .tc := ⟨.hbm, 83, rfl⟩
abbrev main_v51 : Ref sig .tc := ⟨.hbm, 84, rfl⟩
abbrev main_v52 : Ref sig .tc := ⟨.hbm, 85, rfl⟩
abbrev main_c_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call4_v0 : Ref sig .tc := ⟨.hbm, 92, rfl⟩
abbrev main_call4_cst : Ref sig .tc := ⟨.hbm, 93, rfl⟩
abbrev main_call4_v1 : Ref sig .tc := ⟨.hbm, 94, rfl⟩
abbrev main_call4_v2 : Ref sig .tc := ⟨.hbm, 95, rfl⟩
abbrev main_v58 : Ref sig .tc := ⟨.hbm, 96, rfl⟩
abbrev main_cst_8 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call5_v0 : Ref sig .tc := ⟨.hbm, 102, rfl⟩
abbrev main_call5_cst : Ref sig .tc := ⟨.hbm, 103, rfl⟩
abbrev main_call5_v1 : Ref sig .tc := ⟨.hbm, 104, rfl⟩
abbrev main_call5_v2 : Ref sig .tc := ⟨.hbm, 105, rfl⟩
abbrev main_v63 : Ref sig .tc := ⟨.hbm, 106, rfl⟩
abbrev main_cst_9 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_10 : Ref sig .tc := ⟨.hbm, 115, rfl⟩
abbrev main_v71 : Ref sig .tc := ⟨.hbm, 116, rfl⟩
abbrev main_cst_11 : Ref sig .tc := ⟨.hbm, 117, rfl⟩
abbrev main_v72 : Ref sig .tc := ⟨.hbm, 118, rfl⟩
abbrev main_cst_12 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_13 : Ref sig .tc := ⟨.hbm, 124, rfl⟩
abbrev main_v77 : Ref sig .tc := ⟨.hbm, 125, rfl⟩
abbrev main_cst_14 : Ref sig .tc := ⟨.hbm, 126, rfl⟩
abbrev main_v78 : Ref sig .tc := ⟨.hbm, 127, rfl⟩
abbrev main_cst_15 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_16 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_17 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_18 : Ref sig .tc := ⟨.hbm, 141, rfl⟩
abbrev main_v89 : Ref sig .tc := ⟨.hbm, 142, rfl⟩
abbrev main_v90 : Ref sig .tc := ⟨.hbm, 143, rfl⟩
abbrev main_cst_19 : Ref sig .tc := ⟨.hbm, 144, rfl⟩
abbrev main_v91 : Ref sig .tc := ⟨.hbm, 145, rfl⟩
abbrev main_v92 : Ref sig .tc := ⟨.hbm, 146, rfl⟩
abbrev main_cst_20 : Ref sig .tc := ⟨.hbm, 147, rfl⟩
abbrev main_call6_v0 : Ref sig .tc := ⟨.hbm, 148, rfl⟩
abbrev main_call6_v1 : Ref sig .tc := ⟨.hbm, 149, rfl⟩
abbrev main_v93 : Ref sig .tc := ⟨.hbm, 150, rfl⟩
abbrev main_v94 : Ref sig .tc := ⟨.hbm, 151, rfl⟩
abbrev main_cst_21 : Ref sig .tc := ⟨.hbm, 152, rfl⟩
abbrev main_v95 : Ref sig .tc := ⟨.hbm, 153, rfl⟩
abbrev main_cst_22 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_cst_23 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_cst_24 : Ref sig .tc := ⟨.hbm, 163, rfl⟩
abbrev main_v103 : Ref sig .tc := ⟨.hbm, 164, rfl⟩
abbrev main_v104 : Ref sig .tc := ⟨.hbm, 165, rfl⟩
abbrev main_cst_25 : Ref sig .tc := ⟨.hbm, 166, rfl⟩
abbrev main_v105 : Ref sig .tc := ⟨.hbm, 167, rfl⟩
abbrev main_v106 : Ref sig .tc := ⟨.hbm, 168, rfl⟩
abbrev main_cst_26 : Ref sig .tc := ⟨.hbm, 169, rfl⟩
abbrev main_call7_v0 : Ref sig .tc := ⟨.hbm, 170, rfl⟩
abbrev main_call7_v1 : Ref sig .tc := ⟨.hbm, 171, rfl⟩
abbrev main_v107 : Ref sig .tc := ⟨.hbm, 172, rfl⟩
abbrev main_v108 : Ref sig .tc := ⟨.hbm, 173, rfl⟩
abbrev main_cst_27 : Ref sig .tc := ⟨.hbm, 174, rfl⟩
abbrev main_v109 : Ref sig .tc := ⟨.hbm, 175, rfl⟩
abbrev main_cst_28 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  slices_S40000x256_S1x256_0_0 : S40000x256.Slices ![0, 0] S1x256
  shapeCasts_S1x256_S256 : S1x256.ShapeCasts S256
  reducesTo_S256_S_d0 : S256.ReducesTo [0] S_
  h_S_ : 0 < S_.numel
  bcast_S_S1 : S_.BroadcastsInDim S1 (![] : Fin 0 → Fin S1.rank)
  bcast_S1_S256_0 : S1.BroadcastsInDim S256 (![0] : Fin 1 → Fin S256.rank)
  bcast_S_S2048 : S_.BroadcastsInDim S2048 (![] : Fin 0 → Fin S2048.rank)
  bcast_S2048_S2048x1_0 : S2048.BroadcastsInDim S2048x1 (![0] : Fin 1 → Fin S2048x1.rank)
  reducesTo_S2048x256_S2048_d1 : S2048x256.ReducesTo [1] S2048
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  reducesTo_S1x256_S1_d1 : S1x256.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  bcast_S1x256_S2048x256_0_1 : S1x256.BroadcastsInDim S2048x256 (![0, 1] : Fin 2 → Fin S2048x256.rank)
  reducesTo_S2048_S_d0 : S2048.ReducesTo [0] S_
  reducesTo_S1_S_d0 : S1.ReducesTo [0] S_
  dot_S640000x64_S64x128_S640000x128_1_0_0_1_n_n_wf : DotDims.WF S640000x64 S64x128 S640000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x256_S40000x256_1_0_0_1_n_n_wf : DotDims.WF S40000x128 S128x256 S40000x256 [1] [0] [0] [1] [] []
  dot_S40000x256_S256x256_S40000x256_1_0_0_1_n_n_wf : DotDims.WF S40000x256 S256x256 S40000x256 [1] [0] [0] [1] [] []
  gather_S40000x256_S2048x1_S2048x256_1_0_n_n_0_1_1256_wf : GatherDims.WF S40000x256 S2048x1 S2048x256 [1] [0] [] [0] [] 1 ![1, 256]

variable [Facts₀]

def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def gather_S40000x256_S2048x1_S2048x256_1_0_n_n_0_1_1256 : GatherDims S40000x256 S2048x1 S2048x256 where
  offsetDims := [1]
  collapsedSliceDims := [0]
  operandBatchingDims := []
  startIndicesBatchingDims := []
  startIndexMap := [0]
  indexVectorDim := 1
  sliceSizes := ![1, 256]
  wf := gather_S40000x256_S2048x1_S2048x256_1_0_n_n_0_1_1256_wf

class Facts : Prop extends Facts₀ where

variable [Facts]
-- ==== Proof.Spec.lean ====
/-
  The mathematics both programs compute, stated once over the extended reals.

  A linear layer sends a row v of K numbers to the row  y_c = (Σ_k v_k · W_{k,c}) + b_c  (`lin`).
  The message of edge e is  max(x_src(e) + lin We be (attr e), 0)  (`msgArr`); the embedding of node r is
  lin W2 b2 (max(lin W1 b1 (x_r + agg_r), 0))  (`embArr`).  A row is scaled to unit length by dividing it by
  max(sqrt(Σ_k v_k²), ε)  (`unitRow`); the score of two rows is their dot product (`dot`); the loss compares the mean
  score of the centre row against the positive rows, and against the negative rows, with its score against the
  threshold row, through the logistic function and the logarithm (`lossVal`).
-/
import Idealize.ShloMosaic.PureOps.Ideal.Laws
import Idealize.ShloMosaic.Lib.ValueIdx

noncomputable section

open scoped BigOperators

namespace Cert.Gine

open Idealize.ShloMosaic Idealize.ShloMosaic.ValueIdx

/-- One linear layer on a row:  y_c = (Σ_k v_k · W_{k,c}) + b_c . -/
def lin {K C : ℕ} (W : FVec Ideal ⟨2, ![K, C]⟩ .f32) (b : Fin C → EReal) (v : Fin K → EReal) : Fin C → EReal :=
  fun c => (∑ k : Fin K, v k * W (ix2 k c)) + b c

/-- The message array: entry (e, c) is  max(xs(e,c) + lin We be (attr row e) c, 0) . -/
def msgArr {R : ℕ} (xs : FVec Ideal ⟨2, ![R, 128]⟩ .f32) (ea : FVec Ideal ⟨2, ![R, 64]⟩ .f32)
    (We : FVec Ideal ⟨2, ![64, 128]⟩ .f32) (be : Fin 128 → EReal) : FVec Ideal ⟨2, ![R, 128]⟩ .f32 :=
  fun i => max (xs i + lin We be (fun k => ea (ix2 (i 0) k)) (i 1)) 0

/-- The embedding array: row r is the two-layer perceptron of the row  x_r + agg_r . -/
def embArr {R : ℕ} (x agg : FVec Ideal ⟨2, ![R, 128]⟩ .f32) (W1 : FVec Ideal ⟨2, ![128, 256]⟩ .f32)
    (b1 : Fin 256 → EReal) (W2 : FVec Ideal ⟨2, ![256, 256]⟩ .f32) (b2 : Fin 256 → EReal) :
    FVec Ideal ⟨2, ![R, 256]⟩ .f32 :=
  fun i => lin W2 b2 (fun j => max (lin W1 b1 (fun k => x (ix2 (i 0) k) + agg (ix2 (i 0) k)) j) 0) (i 1)

/-- The floor under a norm, and under a logistic value: the single-precision word nearest 1e-12. -/
def epsW : EReal := Ideal.ofBits .f32 0x2B8CBCCC#32
/-- The temperature, the word of 1. -/
def oneW : EReal := Ideal.ofBits .f32 0x3F800000#32
/-- The number of sampled rows, the word of 2048. -/
def cntW : EReal := Ideal.ofBits .f32 0x45000000#32

/-- A row divided by its length, the length floored at ε. -/
def unitRow (v : Fin 256 → EReal) : Fin 256 → EReal :=
  fun j => Ideal.div (v j) (max (Ideal.sqrt (∑ k : Fin 256, v k * v k)) epsW)

/-- The dot product of two rows. -/
def dot (a b : Fin 256 → EReal) : EReal := ∑ j : Fin 256, a j * b j

/-- The mean, over the 2048 sampled rows scaled to unit length, of their score against the row c. -/
def meanScore (c : Fin 256 → EReal) (P : Fin 2048 → Fin 256 → EReal) : EReal :=
  Ideal.div (∑ i : Fin 2048, dot c (unitRow (P i))) cntW

/-- The contrastive loss of a centre row, positive rows, negative rows and a threshold row. -/
def lossVal (cen : Fin 256 → EReal) (P N : Fin 2048 → Fin 256 → EReal) (t : Fin 256 → EReal) : EReal :=
  (0 - Ideal.log (max (Ideal.logistic (Ideal.div (meanScore (unitRow cen) P - dot (unitRow cen) (unitRow t)) oneW)) epsW))
    - Ideal.log (max (Ideal.logistic (Ideal.div (dot (unitRow cen) (unitRow t) - meanScore (unitRow cen) N) oneW)) epsW)

theorem msgArr_apply {R : ℕ} (xs : FVec Ideal ⟨2, ![R, 128]⟩ .f32) (ea : FVec Ideal ⟨2, ![R, 64]⟩ .f32)
    (We : FVec Ideal ⟨2, ![64, 128]⟩ .f32) (be : Fin 128 → EReal) (r : Fin R) (c : Fin 128) :
    msgArr xs ea We be (ix2 r c) = max (xs (ix2 r c) + lin We be (fun k => ea (ix2 r k)) c) 0 := rfl

theorem embArr_apply {R : ℕ} (x agg : FVec Ideal ⟨2, ![R, 128]⟩ .f32) (W1 : FVec Ideal ⟨2, ![128, 256]⟩ .f32)
    (b1 : Fin 256 → EReal) (W2 : FVec Ideal ⟨2, ![256, 256]⟩ .f32) (b2 : Fin 256 → EReal) (r : Fin R) (c : Fin 256) :
    embArr x agg W1 b1 W2 b2 (ix2 r c)
      = lin W2 b2 (fun j => max (lin W1 b1 (fun k => x (ix2 r k) + agg (ix2 r k)) j) 0) c := rfl

end Cert.Gine

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.Edge.lean ====
/-
  The first kernel region: the message of every edge.

  The region tiles the 640000 edges in 80 blocks of 8000 rows. At a block it reads the gathered node rows, the edge
  attributes, the 64 x 128 projection matrix and the bias row, and stores
      max(x_src + (attr · We + be), 0)
  into the same rows of its output. Read at an entry (r, c) of a tile the stored value is the sum over the 64
  attribute columns plus the bias entry c plus the gathered entry, floored at zero (`pay_apply`); a tile's rows are
  rows 8000 t … 8000 t + 7999 of the arrays (`blk0_apply`, `blk1_apply`), the matrix and the bias are read whole
  at every point (`blk2_eq`, `blk3_eq`); so what point t writes back is block t of the message array (`flushed_eq`),
  the 80 blocks cover the array (`cover`: row i lies in block i / 8000), and the region's output ends holding the
  message array of the arrays it found (`final`).
-/
import proofs.«116407_j86878598463719_1_alg».proof.Proof.Gen.KernelIdeal.Frame
import proofs.«116407_j86878598463719_1_alg».proof.Proof.Spec
import proofs.«116407_j86878598463719_1_alg».proof.Proof.LibDense
import proofs.«116407_j86878598463719_1_alg».proof.Proof.LibBiasRow
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.EdgeValue

open Cert.KernelIdeal Cert.KernelIdeal.Gen

theorem hz : (![0, 0] : Fin 2 → Nat) = fun _ => 0 := funext fun a => by fin_cases a <;> rfl

/-- The body's stored value at the entry (r, c) of a tile: the gathered row's entry plus the projected attribute row's
    entry, floored at zero. -/
theorem pay_apply (v0 : Vec Ideal S8000x64 .f32) (v1 : Vec Ideal S64x128 .f32) (v3 : Vec Ideal S1x128 .f32)
    (v7 : Vec Ideal S8000x128 .f32) (r : Fin 8000) (c : Fin 128) :
    k0_pay1 (F := Ideal) v0 v1 v3 v7 (ix2 r c)
      = max (v7 (ix2 r c) + Gine.lin v1 (fun k => v3 (ix2 (0 : Fin 1) k)) (fun k => v0 (ix2 r k)) c) 0 := by
  unfold k0_pay1
  rw [Dense.kernel_relu_apply, addf_apply, addf_apply, shapeCast_self, shapeCast_self,
    Dense.matmul_zero_plain_apply dot_S8000x64_S64x128_S8000x128_1_0_0_1_n_n rfl rfl rfl rfl rfl rfl,
    BiasRow.stretch_row_apply]
  rfl

variable (V : (c : Dev nD) → (b : Ref sig .tc) → Buf (Elt Ideal) ((c : Thread nD τ).loc b)) (c : Dev nD)

/-- The arrays the region reads, as it finds them: the gathered node rows, the edge attributes, the projection matrix
    and the bias laid out as one row. -/
abbrev xsArr : FVec Ideal ⟨2, ![640000, 128]⟩ .f32 := V c main_v10
abbrev eaArr : FVec Ideal ⟨2, ![640000, 64]⟩ .f32 := V c main_arg2
abbrev weArr : FVec Ideal ⟨2, ![64, 128]⟩ .f32 := V c main_arg5
abbrev beArr : FVec Ideal ⟨2, ![1, 128]⟩ .f32 := V c main_v11

/-- The message array of those arrays. -/
def G : FVec Ideal ⟨2, ![640000, 128]⟩ .f32 :=
  Gine.msgArr (xsArr V c) (eaArr V c) (weArr V c) (fun k => beArr V c (ix2 (0 : Fin 1) k))

/-- The block index maps, decided over the 80 grid points: the edge-tiled windows sit at block row t, the resident
    ones at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The gathered rows' block at point t is rows 8000 t … 8000 t + 7999 of the array. -/
theorem blk0_apply (t : Fin cfg0.N) (x : S8000x128.Idx) (k : S640000x128.Idx)
    (hk0 : (k 0).val = 8000 * t.val + (x 0).val) (hk1 : (k 1).val = (x 1).val) :
    (iblk0 V c 0 t : Vec Ideal S8000x128 .f32) x = xsArr V c k := by
  obtain ⟨e0, e1, -⟩ := idx_facts t
  unfold iblk0
  rw [View.read_apply]
  show V c main_v10 _ = V c main_v10 _
  congr 1
  funext a
  apply Fin.ext
  match a with
  | ⟨0, _⟩ => show win0_0.index t 0 * 8000 + 1 * (x 0).val = (k 0).val; rw [e0, hk0]; omega
  | ⟨1, _⟩ => show win0_0.index t 1 * 128 + 1 * (x 1).val = (k 1).val; rw [e1, hk1]; omega

/-- The attributes' block at point t is the same rows of the attribute array. -/
theorem blk1_apply (t : Fin cfg0.N) (x : S8000x64.Idx) (k : S640000x64.Idx)
    (hk0 : (k 0).val = 8000 * t.val + (x 0).val) (hk1 : (k 1).val = (x 1).val) :
    (iblk0 V c 1 t : Vec Ideal S8000x64 .f32) x = eaArr V c k := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 8000 + 1 * (x 0).val = (k 0).val; rw [e0, hk0]; omega
  | ⟨1, _⟩ => show win0_1.index t 1 * 64 + 1 * (x 1).val = (k 1).val; rw [e1, hk1]; omega

/-- The projection matrix's block is the whole matrix at every point. -/
theorem blk2_eq (t : Fin cfg0.N) : (iblk0 V c 2 t : Vec Ideal S64x128 .f32) = weArr V c := by
  obtain ⟨-, -, -, -, e0, e1, -⟩ := idx_facts t
  funext x
  unfold iblk0
  rw [View.read_apply]
  show V c main_arg5 _ = V c main_arg5 _
  congr 1
  funext a
  apply Fin.ext
  match a with
  | ⟨0, _⟩ => show win0_2.index t 0 * 64 + 1 * (x 0).val = (x 0).val; rw [e0]; omega
  | ⟨1, _⟩ => show win0_2.index t 1 * 128 + 1 * (x 1).val = (x 1).val; rw [e1]; omega

/-- The bias row's block is the whole row at every point. -/
theorem blk3_eq (t : Fin cfg0.N) : (iblk0 V c 3 t : Vec Ideal S1x128 .f32) = beArr V c := by
  obtain ⟨-, -, -, -, -, -, e0, e1, -⟩ := idx_facts t
  funext x
  unfold iblk0
  rw [View.read_apply]
  show V c main_v11 _ = V c main_v11 _
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

/-- What point t stores at the tile entry (p, q) is the message array's entry in row 8000 t + p. -/
theorem tile_eq (t : Fin cfg0.N) (p : Fin 8000) (q : Fin 128) (r : Fin 640000) (hr : r.val = 8000 * t.val + p.val) :
    k0_pay1 (F := Ideal) (iblk0 V c 1 t) (iblk0 V c 2 t) (iblk0 V c 3 t) (iblk0 V c 0 t) (ix2 p q) = G V c (ix2 r q) := by
  refine (pay_apply (iblk0 V c 1 t) (iblk0 V c 2 t) (iblk0 V c 3 t) (iblk0 V c 0 t) p q).trans ?_
  unfold G
  rw [Gine.msgArr_apply, blk0_apply V c t (ix2 p q) (ix2 r q) hr rfl, blk2_eq V c t, blk3_eq V c t]
  have e : (fun k : Fin 64 => (iblk0 V c 1 t : Vec Ideal S8000x64 .f32) (ix2 p k)) = fun k => eaArr V c (ix2 r k) :=
    funext fun k => blk1_apply V c t (ix2 p k) (ix2 r k) hr rfl
  rw [e]

/-- What point t writes back is block t of the message array. -/
theorem flushed_eq (t : Fin cfg0.N) :
    (dat0 (F := Ideal) V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S8000x64) hz, View.ld_unit_zero (S := S64x128) hz, View.ld_unit_zero (S := S1x128) hz,
    View.ld_unit_zero (S := S8000x128) hz]
  obtain ⟨-, -, -, -, -, -, -, -, e8, e9⟩ := idx_facts t
  have key : ∀ (j : S8000x128.Idx) (i : S640000x128.Idx), (i 0).val = 8000 * t.val + (j 0).val → (i 1).val = (j 1).val →
      k0_pay1 (F := Ideal) (iblk0 V c 1 t) (iblk0 V c 2 t) (iblk0 V c 3 t) (iblk0 V c 0 t) j = G V c i := by
    intro j i h0 h1
    rw [eq_ix2 j, eq_ix2 i]
    have hq : i 1 = j 1 := Fin.ext h1
    rw [hq]
    exact tile_eq V c t (j 0) (j 1) (i 0) h0
  funext j
  exact key j (((cfg0.win 4).blk t).view.emb j)
    (by show win0_4.index t 0 * 8000 + 1 * (j 0).val = 8000 * t.val + (j 0).val; rw [e8]; omega)
    (by show win0_4.index t 1 * 128 + 1 * (j 1).val = (j 1).val; rw [e9]; omega)

/-- An index of the message array is in point t's block iff each coordinate is in the block's range. -/
theorem mem_blk (t : Fin cfg0.N) (i : S640000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v12).slice (win0_4.rect t)).set ↔ _
  rw [View.set_slice_whole, Rect.mem_set_unit]
  exact Iff.rfl

/-- Every row of the message array lies in the block of the point  row / 8000 . -/
theorem cover (i : S640000x128.Idx) :
    ∃ t : Fin cfg0.N, (cfg0.win 4).flush t = true ∧ i ∈ ((cfg0.win 4).blk t).view.set := by
  have hi0 : (i 0).val < 640000 := (i 0).isLt
  have hi1 : (i 1).val < 128 := (i 1).isLt
  have hN : cfg0.N = 80 := N_0
  have ht : (i 0).val / 8000 < cfg0.N := by rw [hN]; omega
  refine ⟨⟨(i 0).val / 8000, ht⟩, flush0_4 _, ?_⟩
  rw [mem_blk]
  obtain ⟨-, -, -, -, -, -, -, -, e8, e9⟩ := idx_facts ⟨(i 0).val / 8000, ht⟩
  intro a
  match a with
  | ⟨0, _⟩ =>
    show win0_4.index ⟨(i 0).val / 8000, ht⟩ (0 : Fin 2) * 8000 ≤ (i 0).val
      ∧ (i 0).val < win0_4.index ⟨(i 0).val / 8000, ht⟩ (0 : Fin 2) * 8000 + 8000
    rw [e8]
    show (i 0).val / 8000 * 8000 ≤ (i 0).val ∧ (i 0).val < (i 0).val / 8000 * 8000 + 8000
    omega
  | ⟨1, _⟩ =>
    show win0_4.index ⟨(i 0).val / 8000, ht⟩ (1 : Fin 2) * 128 ≤ (i 1).val
      ∧ (i 1).val < win0_4.index ⟨(i 0).val / 8000, ht⟩ (1 : Fin 2) * 128 + 128
    rw [e9]
    omega

/-- The region's output array ends holding the message array of the arrays it read. -/
theorem final : (dat0 (F := Ideal) V c).arrAt 4 cfg0.N = G V c :=
  (dat0 (F := Ideal) V c).arrAt_eq_of_cover 4 (G V c) (fun t _ => flushed_eq V c t) (cover)

end Cert.KernelIdeal.EdgeValue

end
-- ==== Proof.Node.lean ====
/-
  The second kernel region: the embedding of every node.

  The region tiles the 40000 nodes in 8 blocks of 5000 rows. At a block it reads the node rows, the aggregated message
  rows, the two weight matrices and the two bias rows, and stores
      max((x + agg) · W1 + b1, 0) · W2 + b2
  into the same rows of its output. Read at an entry (r, c) of a tile the stored value is the second linear layer, at
  column c, of the floored first linear layer of the row  x_r + agg_r  (`pay_apply`); a tile's rows are rows
  5000 t … 5000 t + 4999 of the arrays, the weights and biases are read whole at every point; so what point t writes back
  is block t of the embedding array (`flushed_eq`), the 8 blocks cover it (`cover`), and the region's output ends holding
  the embedding array of the arrays it found (`final`).
-/
import proofs.«116407_j86878598463719_1_alg».proof.Proof.Gen.KernelIdeal.Frame
import proofs.«116407_j86878598463719_1_alg».proof.Proof.Spec
import proofs.«116407_j86878598463719_1_alg».proof.Proof.LibDense
import proofs.«116407_j86878598463719_1_alg».proof.Proof.LibBiasRow
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.NodeValue

open Cert.KernelIdeal Cert.KernelIdeal.Gen

theorem hz : (![0, 0] : Fin 2 → Nat) = fun _ => 0 := funext fun a => by fin_cases a <;> rfl

/-- The body's stored value at the entry (r, c) of a tile: the second layer, at column c, of the first layer of the row
    x_r + agg_r floored at zero. -/
theorem pay_apply (v0 v1 : Vec Ideal S5000x128 .f32) (v4 : Vec Ideal S128x256 .f32) (v6 : Vec Ideal S1x256 .f32)
    (v12 : Vec Ideal S256x256 .f32) (v14 : Vec Ideal S1x256 .f32) (r : Fin 5000) (c : Fin 256) :
    k1_pay1 (F := Ideal) v0 v1 v4 v6 v12 v14 (ix2 r c)
      = Gine.lin v12 (fun j => v14 (ix2 (0 : Fin 1) j))
          (fun j => max (Gine.lin v4 (fun j => v6 (ix2 (0 : Fin 1) j)) (fun k => v0 (ix2 r k) + v1 (ix2 r k)) j) 0) c := by
  unfold k1_pay1
  simp only [shapeCast_self]
  rw [addf_apply, Dense.matmul_zero_plain_apply dot_S5000x256_S256x256_S5000x256_1_0_0_1_n_n rfl rfl rfl rfl rfl rfl,
    BiasRow.stretch_row_apply]
  unfold Gine.lin
  congr 1
  refine Finset.sum_congr rfl fun j _ => ?_
  congr 1
  rw [Dense.kernel_relu_apply, addf_apply,
    Dense.matmul_zero_plain_apply dot_S5000x128_S128x256_S5000x256_1_0_0_1_n_n rfl rfl rfl rfl rfl rfl,
    BiasRow.stretch_row_apply]
  simp only [addf_apply]

variable (V : (c : Dev nD) → (b : Ref sig .tc) → Buf (Elt Ideal) ((c : Thread nD τ).loc b)) (c : Dev nD)

/-- The arrays the region reads, as it finds them: the node rows, the aggregated messages, the two weight matrices and
    the two biases laid out as one row each. -/
abbrev xArr : FVec Ideal ⟨2, ![40000, 128]⟩ .f32 := V c main_arg0
abbrev aggArr : FVec Ideal ⟨2, ![40000, 128]⟩ .f32 := V c main_v15
abbrev w1Arr : FVec Ideal ⟨2, ![128, 256]⟩ .f32 := V c main_arg7
abbrev b1Arr : FVec Ideal ⟨2, ![1, 256]⟩ .f32 := V c main_v16
abbrev w2Arr : FVec Ideal ⟨2, ![256, 256]⟩ .f32 := V c main_arg9
abbrev b2Arr : FVec Ideal ⟨2, ![1, 256]⟩ .f32 := V c main_v17

/-- The embedding array of those arrays. -/
def G : FVec Ideal ⟨2, ![40000, 256]⟩ .f32 :=
  Gine.embArr (xArr V c) (aggArr V c) (w1Arr V c) (fun j => b1Arr V c (ix2 (0 : Fin 1) j)) (w2Arr V c)
    (fun j => b2Arr V c (ix2 (0 : Fin 1) j))

/-- The block index maps, decided over the 8 grid points: the node-tiled windows sit at block row t, the resident ones
    at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The node rows' block at point t is rows 5000 t … 5000 t + 4999 of the array. -/
theorem blk0_apply (t : Fin cfg1.N) (x : S5000x128.Idx) (k : S40000x128.Idx)
    (hk0 : (k 0).val = 5000 * t.val + (x 0).val) (hk1 : (k 1).val = (x 1).val) :
    (iblk1 V c 0 t : Vec Ideal S5000x128 .f32) x = xArr V c k := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The aggregated rows' block at point t is the same rows of the aggregate. -/
theorem blk1_apply (t : Fin cfg1.N) (x : S5000x128.Idx) (k : S40000x128.Idx)
    (hk0 : (k 0).val = 5000 * t.val + (x 0).val) (hk1 : (k 1).val = (x 1).val) :
    (iblk1 V c 1 t : Vec Ideal S5000x128 .f32) x = aggArr V c k := by
  obtain ⟨-, -, e0, e1, -⟩ := idx_facts t
  unfold iblk1
  rw [View.read_apply]
  show V c main_v15 _ = V c main_v15 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- The first weight matrix's block is the whole matrix at every point. -/
theorem blk2_eq (t : Fin cfg1.N) : (iblk1 V c 2 t : Vec Ideal S128x256 .f32) = w1Arr V c := by
  obtain ⟨-, -, -, -, e0, e1, -⟩ := idx_facts t
  funext x
  unfold iblk1
  rw [View.read_apply]
  show V c main_arg7 _ = V c main_arg7 _
  congr 1
  funext a
  apply Fin.ext
  match a with
  | ⟨0, _⟩ => show win1_2.index t 0 * 128 + 1 * (x 0).val = (x 0).val; rw [e0]; omega
  | ⟨1, _⟩ => show win1_2.index t 1 * 256 + 1 * (x 1).val = (x 1).val; rw [e1]; omega

/-- The first bias row's block is the whole row at every point. -/
theorem blk3_eq (t : Fin cfg1.N) : (iblk1 V c 3 t : Vec Ideal S1x256 .f32) = b1Arr V c := by
  obtain ⟨-, -, -, -, -, -, e0, e1, -⟩ := idx_facts t
  funext x
  unfold iblk1
  rw [View.read_apply]
  show V c main_v16 _ = V c main_v16 _
  congr 1
  funext a
  apply Fin.ext
  match a with
  | ⟨0, _⟩ => show win1_3.index t 0 * 1 + 1 * (x 0).val = (x 0).val; rw [e0]; omega
  | ⟨1, _⟩ => show win1_3.index t 1 * 256 + 1 * (x 1).val = (x 1).val; rw [e1]; omega

/-- The second weight matrix's block is the whole matrix at every point. -/
theorem blk4_eq (t : Fin cfg1.N) : (iblk1 V c 4 t : Vec Ideal S256x256 .f32) = w2Arr V c := by
  obtain ⟨-, -, -, -, -, -, -, -, e0, e1, -⟩ := idx_facts t
  funext x
  unfold iblk1
  rw [View.read_apply]
  show V c main_arg9 _ = V c main_arg9 _
  congr 1
  funext a
  apply Fin.ext
  match a with
  | ⟨0, _⟩ => show win1_4.index t 0 * 256 + 1 * (x 0).val = (x 0).val; rw [e0]; omega
  | ⟨1, _⟩ => show win1_4.index t 1 * 256 + 1 * (x 1).val = (x 1).val; rw [e1]; omega

/-- The second bias row's block is the whole row at every point. -/
theorem blk5_eq (t : Fin cfg1.N) : (iblk1 V c 5 t : Vec Ideal S1x256 .f32) = b2Arr V c := by
  obtain ⟨-, -, -, -, -, -, -, -, -, -, e0, e1, -⟩ := idx_facts t
  funext x
  unfold iblk1
  rw [View.read_apply]
  show V c main_v17 _ = V c main_v17 _
  congr 1
  funext a
  apply Fin.ext
  match a with
  | ⟨0, _⟩ => show win1_5.index t 0 * 1 + 1 * (x 0).val = (x 0).val; rw [e0]; omega
  | ⟨1, _⟩ => show win1_5.index t 1 * 256 + 1 * (x 1).val = (x 1).val; rw [e1]; omega

/-- The two row blocks of point t, at their literal type. -/
abbrev xb (t : Fin cfg1.N) : Vec Ideal S5000x128 .f32 := iblk1 V c 0 t
abbrev ab (t : Fin cfg1.N) : Vec Ideal S5000x128 .f32 := iblk1 V c 1 t

/-- What point t stores at the tile entry (p, q) is the embedding array's entry in row 5000 t + p. -/
theorem tile_eq (t : Fin cfg1.N) (p : Fin 5000) (q : Fin 256) (r : Fin 40000) (hr : r.val = 5000 * t.val + p.val) :
    k1_pay1 (F := Ideal) (iblk1 V c 0 t) (iblk1 V c 1 t) (iblk1 V c 2 t) (iblk1 V c 3 t) (iblk1 V c 4 t) (iblk1 V c 5 t) (ix2 p q)
      = G V c (ix2 r q) := by
  refine (pay_apply (xb V c t) (ab V c t) (iblk1 V c 2 t) (iblk1 V c 3 t) (iblk1 V c 4 t) (iblk1 V c 5 t) p q).trans ?_
  unfold G
  rw [Gine.embArr_apply, blk2_eq V c t, blk3_eq V c t, blk4_eq V c t, blk5_eq V c t]
  have e : (fun k : Fin 128 => xb V c t (ix2 p k) + ab V c t (ix2 p k))
      = fun k => xArr V c (ix2 r k) + aggArr V c (ix2 r k) :=
    funext fun k => by
      rw [show xb V c t (ix2 p k) = xArr V c (ix2 r k) from blk0_apply V c t (ix2 p k) (ix2 r k) hr rfl,
        show ab V c t (ix2 p k) = aggArr V c (ix2 r k) from blk1_apply V c t (ix2 p k) (ix2 r k) hr rfl]
  rw [e]

/-- What point t writes back is block t of the embedding array. -/
theorem flushed_eq (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x256) hz, View.ld_unit_zero (S := S1x256) hz,
    View.ld_unit_zero (S := S256x256) hz, View.ld_unit_zero (S := S5000x256) hz]
  obtain ⟨-, -, -, -, -, -, -, -, -, -, -, -, e8, e9⟩ := idx_facts t
  have key : ∀ (j : S5000x256.Idx) (i : S40000x256.Idx), (i 0).val = 5000 * t.val + (j 0).val → (i 1).val = (j 1).val →
      k1_pay1 (F := Ideal) (iblk1 V c 0 t) (iblk1 V c 1 t) (iblk1 V c 2 t) (iblk1 V c 3 t) (iblk1 V c 4 t) (iblk1 V c 5 t) j = G V c i := by
    intro j i h0 h1
    rw [eq_ix2 j, eq_ix2 i]
    have hq : i 1 = j 1 := Fin.ext h1
    rw [hq]
    exact tile_eq V c t (j 0) (j 1) (i 0) h0
  funext j
  exact key j (((cfg1.win 6).blk t).view.emb j)
    (by show win1_6.index t 0 * 5000 + 1 * (j 0).val = 5000 * t.val + (j 0).val; rw [e8]; omega)
    (by show win1_6.index t 1 * 256 + 1 * (j 1).val = (j 1).val; rw [e9]; omega)

/-- An index of the embedding array is in point t's block iff each coordinate is in the block's range. -/
theorem mem_blk (t : Fin cfg1.N) (i : S40000x256.Idx) :
    i ∈ ((cfg1.win 6).blk t).view.set ↔ ∀ a : Fin 2, win1_6.index t a * S5000x256.size a ≤ (i a).val
      ∧ (i a).val < win1_6.index t a * S5000x256.size a + S5000x256.size a := by
  show i ∈ ((View.whole main_v18).slice (win1_6.rect t)).set ↔ _
  rw [View.set_slice_whole, Rect.mem_set_unit]
  exact Iff.rfl

/-- Every row of the embedding array lies in the block of the point  row / 5000 . -/
theorem cover (i : S40000x256.Idx) :
    ∃ t : Fin cfg1.N, (cfg1.win 6).flush t = true ∧ i ∈ ((cfg1.win 6).blk t).view.set := by
  have hi0 : (i 0).val < 40000 := (i 0).isLt
  have hi1 : (i 1).val < 256 := (i 1).isLt
  have hN : cfg1.N = 8 := N_1
  have ht : (i 0).val / 5000 < cfg1.N := by rw [hN]; omega
  refine ⟨⟨(i 0).val / 5000, ht⟩, flush1_6 _, ?_⟩
  rw [mem_blk]
  obtain ⟨-, -, -, -, -, -, -, -, -, -, -, -, e8, e9⟩ := idx_facts ⟨(i 0).val / 5000, ht⟩
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win1_6.index ⟨(i 0).val / 5000, ht⟩ (1 : Fin 2) * 256 ≤ (i 1).val
      ∧ (i 1).val < win1_6.index ⟨(i 0).val / 5000, ht⟩ (1 : Fin 2) * 256 + 256
    rw [e9]
    omega

/-- The region's output array ends holding the embedding array of the arrays it read. -/
theorem final : (dat1 (F := Ideal) V c).arrAt 6 cfg1.N = G V c :=
  (dat1 (F := Ideal) V c).arrAt_eq_of_cover 6 (G V c) (fun t _ => flushed_eq V c t) (cover)

end Cert.KernelIdeal.NodeValue

end
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.LibColSum.lean ====
/-
  The sum over the FIRST axis of an [a, b] matrix on the extended reals, started from the zero word, read at a column j:
  the sum over the rows r of the matrix's entry at (r, j). (The companion of the sum over the last axis; with the
  [b] → [1, b] cast this is a column statistic kept as a row.)
-/
import Idealize.ShloMosaic.Lib.ValueLayout
import Idealize.ShloMosaic.PureOps.Ideal.Laws

open scoped BigOperators

namespace Cert.LibColSum

open Idealize.ShloMosaic Idealize.ShloMosaic.ValueIdx

/-- On the extended reals, the sum over the first axis of an `[a, b]` matrix, started from the zero word: the entry at
    `j` is the sum over the rows `r` of the matrix's entry at `(r, j)`. (The start word's evidence is typed as a printed
    program carries it: the word equal to itself.) -/
theorem colSum_apply {a b : ℕ} (src : FVec Ideal (⟨2, ![a, b]⟩ : Shape) .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ r : Fin a, src (ix2 r j) := by
  refine (Ideal.multiReduction_add_single src 0x00000000#32 h hφ hacc (ix1 j)).trans ?_
  refine Finset.sum_congr rfl fun r _ => congrArg src ?_
  funext ax
  match ax with
  | ⟨0, _⟩ => rfl
  | ⟨1, _⟩ => rfl

end Cert.LibColSum
-- ==== Proof.Loss.lean ====
/-
  The third kernel region: the contrastive loss, one grid point over whole arrays.

  The body scales the centre row, the 2048 positive rows, the 2048 negative rows and the threshold row to unit length
  (each divided by  max(sqrt(Σ v²), ε) ), takes the centre's score against every positive and negative row and against
  the threshold row, averages the positive and the negative scores, and stores
      - log(max(σ(pos_mean - thr), ε)) - log(max(σ(thr - neg_mean), ε))
  as its one output entry (σ the logistic function). Read entry by entry: a scaled row is `Gine.unitRow` of the row
  (`unit_apply`, for any number of rows), a score is the dot product of two scaled rows (`score_apply`), and the stored
  entry is `Gine.lossVal` of the four arrays' rows (`tail_apply`, `out_apply`). The one grid point reads every array
  whole and writes the whole 1 x 1 output, so the region's output ends holding that value (`final`).
-/
import proofs.«116407_j86878598463719_1_alg».proof.Proof.Gen.KernelIdeal.Frame
import proofs.«116407_j86878598463719_1_alg».proof.Proof.Spec
import proofs.«116407_j86878598463719_1_alg».proof.Proof.LibBiasRow
import proofs.«116407_j86878598463719_1_alg».proof.Proof.LibKeepdimsColumn
import proofs.«116407_j86878598463719_1_alg».proof.Proof.LibColSum
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.LossValue

open Cert.KernelIdeal Cert.KernelIdeal.Gen Cert.LibKeepdimsColumn Cert.LibColSum

theorem hz : (![0, 0] : Fin 2 → Nat) = fun _ => 0 := funext fun a => by fin_cases a <;> rfl

theorem log_apply {s : Shape} (a : FVec Ideal s .f32) (i : s.Idx) : log a i = Ideal.log (a i) := rfl
theorem logistic_apply {s : Shape} (a : FVec Ideal s .f32) (i : s.Idx) : logistic a i = Ideal.logistic (a i) := rfl
theorem sqrt_apply {s : Shape} (a : FVec Ideal s .f32) (i : s.Idx) : sqrt a i = Ideal.sqrt (a i) := rfl

/-- The rows of an [a, 256] matrix scaled to unit length, at the entry (i, j): row i's entry j over the row's length,
    the length floored at ε. -/
theorem unit_apply {a : ℕ} (x : FVec Ideal ⟨2, ![a, 256]⟩ .f32)
    (hr : (⟨2, ![a, 256]⟩ : Shape).Reduces [1] ⟨1, ![a]⟩) (hφ : FKind.Formats .f32)
    (hacc : (0x00000000#32 : BitVec 32) = 0x00000000#32)
    (hsc : (⟨1, ![a]⟩ : Shape).ShapeCasts ⟨2, ![a, 1]⟩) (hbc : (⟨2, ![a, 1]⟩ : Shape).Broadcasts ⟨2, ![a, 256]⟩)
    (i : Fin a) (j : Fin 256) :
    divf x (broadcastTo ⟨2, ![a, 256]⟩ (maximumf (sqrt (shapeCast ⟨2, ![a, 1]⟩
        (multiReduction .add [1] ⟨1, ![a]⟩ (mulf x x) 0x00000000#32 hr hφ hacc) hsc))
        (broadcast ⟨2, ![a, 1]⟩ (Scalar.ofBits (F := Ideal) .f32 0x2B8CBCCC#32))) hbc) (ix2 i j)
      = Gine.unitRow (fun k => x (ix2 i k)) j := by
  rw [divf_apply, broadcastTo_a1_ab_apply, maximumf_apply, broadcast_apply, sqrt_apply, shapeCast_a_a1_apply, rowSum_apply]
  rfl

/-- The centre row scaled to unit length. -/
theorem cen_apply (v0 : Vec Ideal S1x256 .f32) (j : Fin 256) :
    k2_pay2 (F := Ideal) v0 (ix2 (0 : Fin 1) j) = Gine.unitRow (fun k => v0 (ix2 (0 : Fin 1) k)) j := by
  unfold k2_pay2
  simp only [shapeCast_self]
  exact unit_apply (a := 1) v0 _ _ _ _ _ 0 j

/-- The negative rows scaled to unit length. -/
theorem neg_apply (v20 : Vec Ideal S2048x256 .f32) (i : Fin 2048) (j : Fin 256) :
    k2_pay3 (F := Ideal) v20 (ix2 i j) = Gine.unitRow (fun k => v20 (ix2 i k)) j := by
  unfold k2_pay3
  simp only [shapeCast_self]
  exact unit_apply (a := 2048) v20 _ _ _ _ _ i j

/-- The threshold row scaled to unit length. -/
theorem thr_apply (v30 : Vec Ideal S1x256 .f32) (j : Fin 256) :
    k2_pay4 (F := Ideal) v30 (ix2 (0 : Fin 1) j) = Gine.unitRow (fun k => v30 (ix2 (0 : Fin 1) k)) j := by
  unfold k2_pay4
  exact unit_apply (a := 1) v30 _ _ _ _ _ 0 j

/-- The centre's score against positive row i: the dot product of the two scaled rows. -/
theorem score_apply (v0 : Vec Ideal S1x256 .f32) (v10 : Vec Ideal S2048x256 .f32) (i : Fin 2048) :
    k2_pay5 (F := Ideal) v0 v10 (ix1 i)
      = Gine.dot (Gine.unitRow (fun k => v0 (ix2 (0 : Fin 1) k))) (Gine.unitRow (fun k => v10 (ix2 i k))) := by
  unfold k2_pay5
  simp only [shapeCast_self]
  rw [rowSum_apply]
  unfold Gine.dot
  refine Finset.sum_congr rfl fun j _ => ?_
  rw [mulf_apply, BiasRow.stretch_row_apply, cen_apply]
  congr 1
  exact unit_apply (a := 2048) v10 _ _ _ _ _ i j

/-- The body's stored entry from the scaled centre row c, scaled negative rows n, scaled threshold row t and the positive
    scores s: the two log-logistic terms of the mean scores against the threshold score. -/
theorem tail_apply (v9 : FVec Ideal S1x256 .f32) (v29 : FVec Ideal S2048x256 .f32) (v38 : FVec Ideal S1x256 .f32)
    (v41 : FVec Ideal S2048 .f32) :
    k2_pay1 (F := Ideal) v9 v29 v38 v41 (ix2 (0 : Fin 1) (0 : Fin 1))
      = (0 - Ideal.log (max (Ideal.logistic (Ideal.div (Ideal.div (∑ r : Fin 2048, v41 (ix1 r)) Gine.cntW
            - ∑ c : Fin 256, v9 (ix2 (0 : Fin 1) c) * v38 (ix2 (0 : Fin 1) c)) Gine.oneW)) Gine.epsW))
        - Ideal.log (max (Ideal.logistic (Ideal.div ((∑ c : Fin 256, v9 (ix2 (0 : Fin 1) c) * v38 (ix2 (0 : Fin 1) c))
            - Ideal.div (∑ r : Fin 2048, ∑ c : Fin 256, v9 (ix2 (0 : Fin 1) c) * v29 (ix2 r c)) Gine.cntW) Gine.oneW)) Gine.epsW) := by
  unfold k2_pay1
  simp only [subf_apply, divf_apply, maximumf_apply, broadcast_apply, log_apply, logistic_apply, shapeCast_a_a1_apply]
  have hp : multiReduction .add [0] S1 (shapeCast S2048x1 v41 shapeCasts_S2048_S2048x1) 0x00000000#32 reduces_S2048x1_S1
      (.inl rfl) rfl (ix1 (0 : Fin 1)) = ∑ r : Fin 2048, v41 (ix1 r) := by
    rw [colSum_apply (a := 2048) (b := 1)]
    exact Finset.sum_congr rfl fun r _ => shapeCast_a_a1_apply _ _ r 0
  have ht : multiReduction .add [1] S1 (mulf v9 v38) 0x00000000#32 reduces_S1x256_S1 (.inl rfl) rfl (ix1 (0 : Fin 1))
      = ∑ c : Fin 256, v9 (ix2 (0 : Fin 1) c) * v38 (ix2 (0 : Fin 1) c) := by
    rw [rowSum_apply (a := 1) (b := 256)]
    exact Finset.sum_congr rfl fun c _ => mulf_apply _ _ _
  have hn : multiReduction .add [0] S1 (shapeCast S2048x1 (multiReduction .add [1] S2048
        (mulf (broadcastTo S2048x256 v9 broadcasts_S1x256_S2048x256) v29) 0x00000000#32 reduces_S2048x256_S2048 (.inl rfl) rfl)
        shapeCasts_S2048_S2048x1) 0x00000000#32 reduces_S2048x1_S1 (.inl rfl) rfl (ix1 (0 : Fin 1))
      = ∑ r : Fin 2048, ∑ c : Fin 256, v9 (ix2 (0 : Fin 1) c) * v29 (ix2 r c) := by
    rw [colSum_apply (a := 2048) (b := 1)]
    refine Finset.sum_congr rfl fun r _ => ?_
    rw [shapeCast_a_a1_apply, rowSum_apply (a := 2048) (b := 256)]
    refine Finset.sum_congr rfl fun c _ => ?_
    rw [mulf_apply, BiasRow.stretch_row_apply]
  rw [hp, ht, hn]
  show Ideal.ofBits .f32 0x00000000#32 - _ - _ = _
  rw [Ideal.ofBits_zero_f32]
  rfl

/-- The body's one output entry is the loss of the four arrays' rows. -/
theorem out_apply (x0 : Vec Ideal S1x256 .f32) (x1 x2 : Vec Ideal S2048x256 .f32) (x3 : Vec Ideal S1x256 .f32) :
    out2_4 (F := Ideal) x0 x1 x2 x3 (ix2 (0 : Fin 1) (0 : Fin 1))
      = Gine.lossVal (fun k => x0 (ix2 (0 : Fin 1) k)) (fun i k => x1 (ix2 i k)) (fun i k => x2 (ix2 i k))
          (fun k => x3 (ix2 (0 : Fin 1) k)) := by
  unfold out2_4
  rw [View.canon_unit_zero hz]
  simp only [View.ld_unit_zero (S := S1x256) hz, View.ld_unit_zero (S := S2048x256) hz]
  rw [tail_apply]
  simp only [cen_apply, neg_apply, thr_apply, score_apply, Gine.lossVal, Gine.meanScore, Gine.dot]

variable (V : (c : Dev nD) → (b : Ref sig .tc) → Buf (Elt Ideal) ((c : Thread nD τ).loc b)) (c : Dev nD)

/-- The arrays the region reads, as it finds them: the centre row, the positive rows, the negative rows, the threshold
    row. -/
abbrev cenArr : FVec Ideal ⟨2, ![1, 256]⟩ .f32 := V c main_v19
abbrev posArr : FVec Ideal ⟨2, ![2048, 256]⟩ .f32 := V c main_v26
abbrev negArr : FVec Ideal ⟨2, ![2048, 256]⟩ .f32 := V c main_v33
abbrev thrArr : FVec Ideal ⟨2, ![1, 256]⟩ .f32 := V c main_arg11

/-- The loss of those arrays, as the 1 x 1 output array. -/
def G : FVec Ideal ⟨2, ![1, 1]⟩ .f32 := fun _ =>
  Gine.lossVal (fun k => cenArr V c (ix2 (0 : Fin 1) k)) (fun i k => posArr V c (ix2 i k)) (fun i k => negArr V c (ix2 i k))
    (fun k => thrArr V c (ix2 (0 : Fin 1) k))

/-- The block index maps at the one grid point: every window sits at block (0, 0). -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Each input window's block is its whole array. -/
theorem blk0_eq (t : Fin cfg2.N) : (iblk2 V c 0 t : Vec Ideal S1x256 .f32) = cenArr V c := by
  obtain ⟨e0, e1, -⟩ := idx_facts t
  funext x
  unfold iblk2
  rw [View.read_apply]
  show V c main_v19 _ = V c main_v19 _
  congr 1
  funext a
  apply Fin.ext
  match a with
  | ⟨0, _⟩ => show win2_0.index t 0 * 1 + 1 * (x 0).val = (x 0).val; rw [e0]; omega
  | ⟨1, _⟩ => show win2_0.index t 1 * 256 + 1 * (x 1).val = (x 1).val; rw [e1]; omega

theorem blk1_eq (t : Fin cfg2.N) : (iblk2 V c 1 t : Vec Ideal S2048x256 .f32) = posArr V c := by
  obtain ⟨-, -, e0, e1, -⟩ := idx_facts t
  funext x
  unfold iblk2
  rw [View.read_apply]
  show V c main_v26 _ = V c main_v26 _
  congr 1
  funext a
  apply Fin.ext
  match a with
  | ⟨0, _⟩ => show win2_1.index t 0 * 2048 + 1 * (x 0).val = (x 0).val; rw [e0]; omega
  | ⟨1, _⟩ => show win2_1.index t 1 * 256 + 1 * (x 1).val = (x 1).val; rw [e1]; omega

theorem blk2_eq (t : Fin cfg2.N) : (iblk2 V c 2 t : Vec Ideal S2048x256 .f32) = negArr V c := by
  obtain ⟨-, -, -, -, e0, e1, -⟩ := idx_facts t
  funext x
  unfold iblk2
  rw [View.read_apply]
  show V c main_v33 _ = V c main_v33 _
  congr 1
  funext a
  apply Fin.ext
  match a with
  | ⟨0, _⟩ => show win2_2.index t 0 * 2048 + 1 * (x 0).val = (x 0).val; rw [e0]; omega
  | ⟨1, _⟩ => show win2_2.index t 1 * 256 + 1 * (x 1).val = (x 1).val; rw [e1]; omega

theorem blk3_eq (t : Fin cfg2.N) : (iblk2 V c 3 t : Vec Ideal S1x256 .f32) = thrArr V c := by
  obtain ⟨-, -, -, -, -, -, e0, e1, -⟩ := idx_facts t
  funext x
  unfold iblk2
  rw [View.read_apply]
  show V c main_arg11 _ = V c main_arg11 _
  congr 1
  funext a
  apply Fin.ext
  match a with
  | ⟨0, _⟩ => show win2_3.index t 0 * 1 + 1 * (x 0).val = (x 0).val; rw [e0]; omega
  | ⟨1, _⟩ => show win2_3.index t 1 * 256 + 1 * (x 1).val = (x 1).val; rw [e1]; omega

/-- What the one point writes back is the loss array. -/
theorem flushed_eq (t : Fin cfg2.N) :
    (dat2 (F := Ideal) V c).flushed 4 t = ((cfg2.win 4).blk t).view.read (Elt Ideal) (G V c) := by
  show (cfg2.win 4).cut (grid2.coords t) ((dat2 V c).after 4 t) = _
  rw [after2_4, blk0_eq V c t, blk1_eq V c t, blk2_eq V c t, blk3_eq V c t]
  have key : ∀ j : S1x1.Idx, out2_4 (F := Ideal) (cenArr V c) (posArr V c) (negArr V c) (thrArr V c) j
      = Gine.lossVal (fun k => cenArr V c (ix2 (0 : Fin 1) k)) (fun i k => posArr V c (ix2 i k))
          (fun i k => negArr V c (ix2 i k)) (fun k => thrArr V c (ix2 (0 : Fin 1) k)) := by
    intro j
    have hj : j = ix2 (0 : Fin 1) (0 : Fin 1) := by
      funext a
      apply Fin.ext
      match a with
      | ⟨0, _⟩ => have h := idx2_lt0 (n0 := 1) (n1 := 1) j; show (j 0).val = 0; omega
      | ⟨1, _⟩ => have h := idx2_lt1 (n0 := 1) (n1 := 1) j; show (j 1).val = 0; omega
    rw [hj]
    exact out_apply _ _ _ _
  funext j
  exact key j

/-- An index of the output array is in the point's block iff each coordinate is in the block's range. -/
theorem mem_blk (t : Fin cfg2.N) (i : S1x1.Idx) :
    i ∈ ((cfg2.win 4).blk t).view.set ↔ ∀ a : Fin 2, win2_4.index t a * S1x1.size a ≤ (i a).val
      ∧ (i a).val < win2_4.index t a * S1x1.size a + S1x1.size a := by
  show i ∈ ((View.whole main_v34).slice (win2_4.rect t)).set ↔ _
  rw [View.set_slice_whole, Rect.mem_set_unit]
  exact Iff.rfl

/-- The one point's block is the whole output array. -/
theorem cover (i : S1x1.Idx) :
    ∃ t : Fin cfg2.N, (cfg2.win 4).flush t = true ∧ i ∈ ((cfg2.win 4).blk t).view.set := by
  have hi0 : (i 0).val < 1 := (i 0).isLt
  have hi1 : (i 1).val < 1 := (i 1).isLt
  refine ⟨t2_0, flush2_4 _, ?_⟩
  rw [mem_blk]
  obtain ⟨-, -, -, -, -, -, -, -, e8, e9⟩ := idx_facts t2_0
  intro a
  match a with
  | ⟨0, _⟩ =>
    show win2_4.index t2_0 (0 : Fin 2) * 1 ≤ (i 0).val ∧ (i 0).val < win2_4.index t2_0 (0 : Fin 2) * 1 + 1
    rw [e8]
    omega
  | ⟨1, _⟩ =>
    show win2_4.index t2_0 (1 : Fin 2) * 1 ≤ (i 1).val ∧ (i 1).val < win2_4.index t2_0 (1 : Fin 2) * 1 + 1
    rw [e9]
    omega

/-- The region's output array ends holding the loss of the arrays it read. -/
theorem final : (dat2 (F := Ideal) V c).arrAt 4 cfg2.N = G V c :=
  (dat2 (F := Ideal) V c).arrAt_eq_of_cover 4 (G V c) (fun t _ => flushed_eq V c t) (cover)

end Cert.KernelIdeal.LossValue

end
-- ==== Proof.Shared.lean ====
/-
  The whole computation as one function of the twelve arguments.

  The source and target rows of the edge index are its two rows read as vectors (`srcRow`, `dstRow`); an index vector is
  wrapped (a negative entry has the number of nodes, 40000, added) and laid out as a column of start indices
  (`wrapE`, `colE` for the 640000 edges; `wrapS`, `colS` for the 2048 samples). The gathered node rows are the row gather
  of x at the wrapped sources (`gatherX`); the aggregate is the scatter-add of the messages into zeros at the targets
  (`aggOf`); sampled embedding rows are the row gather of the embeddings at the wrapped samples (`rowsOf`). Around them:
  the message array (`msgOf`), the embedding array (`embOf`) and the loss of embedding row 0, the positive rows, the
  negative rows and the threshold row (`total`). The gather, the scatter-add and the index preparation are the same
  host operations in both programs, so they stay unopened.
-/
import proofs.«116407_j86878598463719_1_alg».proof.Proof.Gen.KernelIdeal
import proofs.«116407_j86878598463719_1_alg».proof.Proof.Spec

noncomputable section

open scoped BigOperators

namespace Cert.Gine

open Idealize.ShloMosaic Idealize.ShloMosaic.ValueIdx Cert.KernelIdeal Cert.KernelIdeal.Gen

/-- An integer array and a float array of a shape, on the extended reals. -/
abbrev IArr (s : Shape) : Type := (⟨s, .i32⟩ : BufTy).Contents (Elt Ideal)
abbrev FArr (s : Shape) : Type := (⟨s, .f32⟩ : BufTy).Contents (Elt Ideal)

/-- Row 0 of the edge index, the sources, as a vector. -/
def srcRow (x1 : IArr S2x640000) : IArr S640000 :=
  shapeCast _ (extractStridedSlice S1x640000 ![0, 0] x1 slices_S2x640000_S1x640000_0_0) shapeCasts_S1x640000_S640000

/-- Row 1 of the edge index, the targets, as a vector. -/
def dstRow (x1 : IArr S2x640000) : IArr S640000 :=
  shapeCast _ (extractStridedSlice S1x640000 ![1, 0] x1 slices_S2x640000_S1x640000_1_0) shapeCasts_S1x640000_S640000

/-- An edge index vector with its negative entries wrapped by the number of nodes. -/
def wrapE (v : IArr S640000) : IArr S640000 :=
  select (cmpi .slt v (broadcastInDim S640000 ![] bcast_S_S640000 (constantI S_ 32 0#32)))
    (addi v (broadcastInDim S640000 ![] bcast_S_S640000 (constantI S_ 32 40000#32))) v

/-- An edge index vector as a column of start indices. -/
def colE (v : IArr S640000) : IArr S640000x1 := broadcastInDim S640000x1 ![0] bcast_S640000_S640000x1_0 v

/-- A sample index vector with its negative entries wrapped by the number of nodes. -/
def wrapS (v : IArr S2048) : IArr S2048 :=
  select (cmpi .slt v (broadcastInDim S2048 ![] bcast_S_S2048 (constantI S_ 32 0#32)))
    (addi v (broadcastInDim S2048 ![] bcast_S_S2048 (constantI S_ 32 40000#32))) v

/-- A sample index vector as a column of start indices. -/
def colS (v : IArr S2048) : IArr S2048x1 := broadcastInDim S2048x1 ![0] bcast_S2048_S2048x1_0 v

/-- The node rows gathered at the wrapped sources. -/
def gatherX (x0 : FArr S40000x128) (x1 : IArr S2x640000) : FArr S640000x128 :=
  Host.gather gather_S40000x128_S640000x1_S640000x128_1_0_n_n_0_1_1128 x0 (colE (wrapE (srcRow x1)))

/-- The messages added into zeros at the targets. -/
def aggOf (x1 : IArr S2x640000) (M : FArr S640000x128) : FArr S40000x128 :=
  Host.scatterAdd scatter_S40000x128_S640000x1_S640000x128_1_0_0_1
    (broadcastInDim S40000x128 ![] bcast_S_S40000x128 (constant (F := Ideal) S_ .f32 0x00000000#32)) (colE (dstRow x1)) M

/-- The embedding rows gathered at the wrapped samples. -/
def rowsOf (E : FArr S40000x256) (x : IArr S2048) : FArr S2048x256 :=
  Host.gather gather_S40000x256_S2048x1_S2048x256_1_0_n_n_0_1_1256 E (colS (wrapS x))

/-- The message array of the arguments. -/
def msgOf (x0 : FArr S40000x128) (x1 : IArr S2x640000) (x2 : FArr S640000x64) (x5 : FArr S64x128) (x6 : FArr S128) :
    FArr S640000x128 :=
  msgArr (R := 640000) (gatherX x0 x1) x2 x5 (fun k => x6 (ix1 k))

/-- The embedding array of the arguments. -/
def embOf (x0 : FArr S40000x128) (x1 : IArr S2x640000) (x2 : FArr S640000x64) (x5 : FArr S64x128) (x6 : FArr S128)
    (x7 : FArr S128x256) (x8 : FArr S256) (x9 : FArr S256x256) (x10 : FArr S256) : FArr S40000x256 :=
  embArr (R := 40000) x0 (aggOf x1 (msgOf x0 x1 x2 x5 x6)) x7 (fun j => x8 (ix1 j)) x9 (fun j => x10 (ix1 j))

/-- The loss from an embedding array, the two sample index vectors and the threshold row. -/
def lossOf (E : FArr S40000x256) (x3 x4 : IArr S2048) (x11 : FArr S1x256) : EReal :=
  lossVal (fun k => E (ix2 (0 : Fin 40000) k)) (fun i k => rowsOf E x3 (ix2 i k)) (fun i k => rowsOf E x4 (ix2 i k))
    (fun k => x11 (ix2 (0 : Fin 1) k))

/-- The whole computation. -/
def total (x0 : FArr S40000x128) (x1 : IArr S2x640000) (x2 : FArr S640000x64) (x3 x4 : IArr S2048) (x5 : FArr S64x128)
    (x6 : FArr S128) (x7 : FArr S128x256) (x8 : FArr S256) (x9 : FArr S256x256) (x10 : FArr S256) (x11 : FArr S1x256) :
    EReal :=
  lossOf (embOf x0 x1 x2 x5 x6 x7 x8 x9 x10) x3 x4 x11

end Cert.Gine

end
-- ==== Proof.KernelValue.lean ====
/-
  The kernel program's result as a function of its arguments.

  @main is three kernel regions among four stretches of host operations. Walking the buffer contents from the launch to
  the return: the first stretch prepares the source and target indices, gathers the node rows and lays the bias out as a
  row; region 0 leaves the message array; the second stretch scatter-adds the messages into the aggregate and lays the
  two biases out as rows; region 1 leaves the embedding array; the third stretch takes embedding row 0 and gathers the
  sampled rows; region 2 leaves the loss in its one entry; the last stretch reads that entry out as a scalar. A buffer
  that a stretch or a region does not write keeps its contents, so every argument is read as launched. The result is
  `Gine.total` of the twelve arguments (`result`).
-/
import proofs.«116407_j86878598463719_1_alg».proof.Proof.Gen.KernelIdeal.Frame
import proofs.«116407_j86878598463719_1_alg».proof.Proof.Edge
import proofs.«116407_j86878598463719_1_alg».proof.Proof.Node
import proofs.«116407_j86878598463719_1_alg».proof.Proof.Loss
import proofs.«116407_j86878598463719_1_alg».proof.Proof.Shared
import proofs.«116407_j86878598463719_1_alg».proof.Proof.LibBiasRow
import Idealize.ShloMosaic.Lib.StableHlo.Run
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Whole

open Cert.KernelIdeal Cert.KernelIdeal.Gen Cert.Gine

variable (m : (ℓ : Loc nD τ sig) → Buf (Elt Ideal) ℓ) (ρ : Dev nD → PrngReg) (c : Dev nD)

/-- The twelve arguments as launched, at their literal types. -/
abbrev a0 : FArr S40000x128 := m ((c : Thread nD τ).loc main_arg0)
abbrev a1 : IArr S2x640000 := m ((c : Thread nD τ).loc main_arg1)
abbrev a2 : FArr S640000x64 := m ((c : Thread nD τ).loc main_arg2)
abbrev a3 : IArr S2048 := m ((c : Thread nD τ).loc main_arg3)
abbrev a4 : IArr S2048 := m ((c : Thread nD τ).loc main_arg4)
abbrev a5 : FArr S64x128 := m ((c : Thread nD τ).loc main_arg5)
abbrev a6 : FArr S128 := m ((c : Thread nD τ).loc main_arg6)
abbrev a7 : FArr S128x256 := m ((c : Thread nD τ).loc main_arg7)
abbrev a8 : FArr S256 := m ((c : Thread nD τ).loc main_arg8)
abbrev a9 : FArr S256x256 := m ((c : Thread nD τ).loc main_arg9)
abbrev a10 : FArr S256 := m ((c : Thread nD τ).loc main_arg10)
abbrev a11 : FArr S1x256 := m ((c : Thread nD τ).loc main_arg11)

/-! ## Buffers no operation and no region writes before they are read -/

/-- A buffer that the first host stretch does not write holds its launch contents at region 0's entry. -/
theorem W1_arg0 : W1 m ρ c (Proc.devRef .tc main_arg0) = a0 m c := by
  show StableHlo.after hostOps0 (W0 m ρ c) (Proc.devRef .tc main_arg0) = _
  after_results
theorem W1_arg3 : W1 m ρ c (Proc.devRef .tc main_arg3) = a3 m c := by
  show StableHlo.after hostOps0 (W0 m ρ c) (Proc.devRef .tc main_arg3) = _
  after_results
theorem W1_arg4 : W1 m ρ c (Proc.devRef .tc main_arg4) = a4 m c := by
  show StableHlo.after hostOps0 (W0 m ρ c) (Proc.devRef .tc main_arg4) = _
  after_results
theorem W1_arg7 : W1 m ρ c (Proc.devRef .tc main_arg7) = a7 m c := by
  show StableHlo.after hostOps0 (W0 m ρ c) (Proc.devRef .tc main_arg7) = _
  after_results
theorem W1_arg8 : W1 m ρ c (Proc.devRef .tc main_arg8) = a8 m c := by
  show StableHlo.after hostOps0 (W0 m ρ c) (Proc.devRef .tc main_arg8) = _
  after_results
theorem W1_arg9 : W1 m ρ c (Proc.devRef .tc main_arg9) = a9 m c := by
  show StableHlo.after hostOps0 (W0 m ρ c) (Proc.devRef .tc main_arg9) = _
  after_results
theorem W1_arg10 : W1 m ρ c (Proc.devRef .tc main_arg10) = a10 m c := by
  show StableHlo.after hostOps0 (W0 m ρ c) (Proc.devRef .tc main_arg10) = _
  after_results
theorem W1_arg11 : W1 m ρ c (Proc.devRef .tc main_arg11) = a11 m c := by
  show StableHlo.after hostOps0 (W0 m ρ c) (Proc.devRef .tc main_arg11) = _
  after_results
/-- The target row of the edge index, computed by the first host stretch. -/
theorem W1_v3 : W1 m ρ c (Proc.devRef .tc main_v3) = dstRow (a1 m c) := by
  show StableHlo.after hostOps0 (W0 m ρ c) (Proc.devRef .tc main_v3) = _
  after_results
  rfl

/-- Region 0 writes only its message array: the other buffers leave it as they entered. -/
theorem W2_arg0 : W2 m ρ c (Proc.devRef .tc main_arg0) = a0 m c := (W2_of_ne m ρ c main_arg0 (by decide)).trans (W1_arg0 m ρ c)
theorem W2_arg3 : W2 m ρ c (Proc.devRef .tc main_arg3) = a3 m c := (W2_of_ne m ρ c main_arg3 (by decide)).trans (W1_arg3 m ρ c)
theorem W2_arg4 : W2 m ρ c (Proc.devRef .tc main_arg4) = a4 m c := (W2_of_ne m ρ c main_arg4 (by decide)).trans (W1_arg4 m ρ c)
theorem W2_arg7 : W2 m ρ c (Proc.devRef .tc main_arg7) = a7 m c := (W2_of_ne m ρ c main_arg7 (by decide)).trans (W1_arg7 m ρ c)
theorem W2_arg8 : W2 m ρ c (Proc.devRef .tc main_arg8) = a8 m c := (W2_of_ne m ρ c main_arg8 (by decide)).trans (W1_arg8 m ρ c)
theorem W2_arg9 : W2 m ρ c (Proc.devRef .tc main_arg9) = a9 m c := (W2_of_ne m ρ c main_arg9 (by decide)).trans (W1_arg9 m ρ c)
theorem W2_arg10 : W2 m ρ c (Proc.devRef .tc main_arg10) = a10 m c := (W2_of_ne m ρ c main_arg10 (by decide)).trans (W1_arg10 m ρ c)
theorem W2_arg11 : W2 m ρ c (Proc.devRef .tc main_arg11) = a11 m c := (W2_of_ne m ρ c main_arg11 (by decide)).trans (W1_arg11 m ρ c)
theorem W2_v3 : W2 m ρ c (Proc.devRef .tc main_v3) = dstRow (a1 m c) := (W2_of_ne m ρ c main_v3 (by decide)).trans (W1_v3 m ρ c)

/-! ## Region 0: the messages -/

theorem e_xs : EdgeValue.xsArr (V1 m ρ) c = gatherX (a0 m c) (a1 m c) := by
  show StableHlo.after hostOps0 (W0 m ρ c) (Proc.devRef .tc main_v10) = _
  after_results
  rfl
theorem e_ea : EdgeValue.eaArr (V1 m ρ) c = a2 m c := by
  show StableHlo.after hostOps0 (W0 m ρ c) (Proc.devRef .tc main_arg2) = _
  after_results
theorem e_we : EdgeValue.weArr (V1 m ρ) c = a5 m c := by
  show StableHlo.after hostOps0 (W0 m ρ c) (Proc.devRef .tc main_arg5) = _
  after_results
theorem e_be : EdgeValue.beArr (V1 m ρ) c = shapeCast S1x128 (a6 m c) shapeCasts_S128_S1x128 := by
  show StableHlo.after hostOps0 (W0 m ρ c) (Proc.devRef .tc main_v11) = _
  after_results
  rfl

/-- Region 0 leaves the message array of the arguments in its output. -/
theorem W2_v12 : W2 m ρ c (Proc.devRef .tc main_v12) = msgOf (a0 m c) (a1 m c) (a2 m c) (a5 m c) (a6 m c) := by
  refine (W2_arr m ρ c 4).trans ?_
  rw [EdgeValue.final]
  unfold EdgeValue.G msgOf
  rw [e_xs, e_ea, e_we, e_be]
  congr 1
  funext k
  exact BiasRow.cast_row_apply shapeCasts_S128_S1x128 (a6 m c) k

/-! ## Region 1: the embeddings -/

theorem n_x : NodeValue.xArr (V3 m ρ) c = a0 m c := by
  show StableHlo.after hostOps1 (W2 m ρ c) (Proc.devRef .tc main_arg0) = _
  after_results
  exact W2_arg0 m ρ c
theorem n_agg : NodeValue.aggArr (V3 m ρ) c = aggOf (a1 m c) (msgOf (a0 m c) (a1 m c) (a2 m c) (a5 m c) (a6 m c)) := by
  show StableHlo.after hostOps1 (W2 m ρ c) (Proc.devRef .tc main_v15) = _
  after_results
  rw [W2_v3, W2_v12]
  rfl
theorem n_w1 : NodeValue.w1Arr (V3 m ρ) c = a7 m c := by
  show StableHlo.after hostOps1 (W2 m ρ c) (Proc.devRef .tc main_arg7) = _
  after_results
  exact W2_arg7 m ρ c
theorem n_b1 : NodeValue.b1Arr (V3 m ρ) c = shapeCast S1x256 (a8 m c) shapeCasts_S256_S1x256 := by
  show StableHlo.after hostOps1 (W2 m ρ c) (Proc.devRef .tc main_v16) = _
  after_results
  rw [W2_arg8]
  rfl
theorem n_w2 : NodeValue.w2Arr (V3 m ρ) c = a9 m c := by
  show StableHlo.after hostOps1 (W2 m ρ c) (Proc.devRef .tc main_arg9) = _
  after_results
  exact W2_arg9 m ρ c
theorem n_b2 : NodeValue.b2Arr (V3 m ρ) c = shapeCast S1x256 (a10 m c) shapeCasts_S256_S1x256 := by
  show StableHlo.after hostOps1 (W2 m ρ c) (Proc.devRef .tc main_v17) = _
  after_results
  rw [W2_arg10]
  rfl

/-- The embedding array of the arguments. -/
abbrev E : FArr S40000x256 := embOf (a0 m c) (a1 m c) (a2 m c) (a5 m c) (a6 m c) (a7 m c) (a8 m c) (a9 m c) (a10 m c)

/-- Region 1 leaves the embedding array of the arguments in its output. -/
theorem W4_v18 : W4 m ρ c (Proc.devRef .tc main_v18) = E m c := by
  refine (W4_arr m ρ c 6).trans ?_
  rw [NodeValue.final]
  unfold NodeValue.G E embOf
  rw [n_x, n_agg, n_w1, n_b1, n_w2, n_b2]
  congr 1
  · funext j
    exact BiasRow.cast_row_apply shapeCasts_S256_S1x256 (a8 m c) j
  · funext j
    exact BiasRow.cast_row_apply shapeCasts_S256_S1x256 (a10 m c) j

/-- The sample indices and the threshold row reach the last host stretch as launched. -/
theorem W4_arg3 : W4 m ρ c (Proc.devRef .tc main_arg3) = a3 m c := by
  refine (W4_of_ne m ρ c main_arg3 (by decide)).trans ?_
  show StableHlo.after hostOps1 (W2 m ρ c) (Proc.devRef .tc main_arg3) = _
  after_results
  exact W2_arg3 m ρ c
theorem W4_arg4 : W4 m ρ c (Proc.devRef .tc main_arg4) = a4 m c := by
  refine (W4_of_ne m ρ c main_arg4 (by decide)).trans ?_
  show StableHlo.after hostOps1 (W2 m ρ c) (Proc.devRef .tc main_arg4) = _
  after_results
  exact W2_arg4 m ρ c
theorem W4_arg11 : W4 m ρ c (Proc.devRef .tc main_arg11) = a11 m c := by
  refine (W4_of_ne m ρ c main_arg11 (by decide)).trans ?_
  show StableHlo.after hostOps1 (W2 m ρ c) (Proc.devRef .tc main_arg11) = _
  after_results
  exact W2_arg11 m ρ c

/-! ## Region 2: the loss -/

theorem l_cen : LossValue.cenArr (V5 m ρ) c = extractStridedSlice S1x256 ![0, 0] (E m c) slices_S40000x256_S1x256_0_0 := by
  show StableHlo.after hostOps2 (W4 m ρ c) (Proc.devRef .tc main_v19) = _
  after_results
  rw [W4_v18]
set_option maxHeartbeats 1000000 in
theorem l_pos : LossValue.posArr (V5 m ρ) c = rowsOf (E m c) (a3 m c) := by
  show StableHlo.after hostOps2 (W4 m ρ c) (Proc.devRef .tc main_v26) = _
  after_results
  rw [W4_v18, W4_arg3]
  rfl
set_option maxHeartbeats 1000000 in
theorem l_neg : LossValue.negArr (V5 m ρ) c = rowsOf (E m c) (a4 m c) := by
  show StableHlo.after hostOps2 (W4 m ρ c) (Proc.devRef .tc main_v33) = _
  after_results
  rw [W4_v18, W4_arg4]
  rfl
theorem l_thr : LossValue.thrArr (V5 m ρ) c = a11 m c := by
  show StableHlo.after hostOps2 (W4 m ρ c) (Proc.devRef .tc main_arg11) = _
  after_results
  exact W4_arg11 m ρ c

/-- Row 0 of an embedding array, read through the slice that takes it. -/
theorem slice_row0 (X : FArr S40000x256) (k : Fin 256) :
    extractStridedSlice S1x256 ![0, 0] X slices_S40000x256_S1x256_0_0 (ix2 (0 : Fin 1) k) = X (ix2 (0 : Fin 40000) k) :=
  extractStridedSlice_apply ![0, 0] X slices_S40000x256_S1x256_0_0 (ix2 (0 : Fin 1) k) (ix2 (0 : Fin 40000) k)
    (fun a => match a with
      | ⟨0, _⟩ => rfl
      | ⟨1, _⟩ => by show k.val = 0 + k.val; omega)

/-- Region 2 leaves the loss of the arguments in its one output entry. -/
theorem W6_v34 : W6 m ρ c (Proc.devRef .tc main_v34)
    = fun _ => total (a0 m c) (a1 m c) (a2 m c) (a3 m c) (a4 m c) (a5 m c) (a6 m c) (a7 m c) (a8 m c) (a9 m c) (a10 m c) (a11 m c) := by
  refine (W6_arr m ρ c 4).trans ?_
  refine (LossValue.final (V5 m ρ) c).trans ?_
  unfold LossValue.G
  rw [l_cen, l_pos, l_neg, l_thr]
  have hc : (fun k : Fin 256 => extractStridedSlice S1x256 ![0, 0] (E m c) slices_S40000x256_S1x256_0_0 (ix2 (0 : Fin 1) k))
      = fun k => E m c (ix2 (0 : Fin 40000) k) :=
    funext fun k => slice_row0 (E m c) k
  rw [hc]
  rfl

/-- @main's result: the loss of the arguments. -/
theorem result : W7 m ρ c (Proc.devRef .tc main_v35)
    = fun _ => total (a0 m c) (a1 m c) (a2 m c) (a3 m c) (a4 m c) (a5 m c) (a6 m c) (a7 m c) (a8 m c) (a9 m c) (a10 m c) (a11 m c) := by
  show StableHlo.after hostOps3 (W6 m ρ c) (Proc.devRef .tc main_v35) = _
  after_results
  rw [W6_v34]
  rfl

end Cert.KernelIdeal.Whole

end
-- ==== Proof.Consts.lean ====
/-
  Two facts about the number one on the extended reals: the single-precision word 0x3F800000 denotes 1, and
  dividing by 1 changes nothing (the quotient is the product with the inverse, and the inverse of 1 is 1).
-/
import Idealize.ShloMosaic.PureOps.Ideal.Laws

noncomputable section

namespace Cert.Gine

open Idealize.ShloMosaic

/-- The word of 1.0 denotes the number 1. -/
theorem ofBits_one : Ideal.ofBits .f32 0x3F800000#32 = 1 := by
  simp [Ideal.ofBits, Ideal.ieee, -EReal.coe_mul]; norm_num

/-- A quotient by 1 is its numerator, infinite or not. -/
theorem div_one (x : EReal) : Ideal.div x 1 = x := by
  unfold Ideal.div
  rw [if_neg one_ne_zero, ← EReal.coe_one, ← EReal.coe_inv, inv_one, EReal.coe_one, mul_one]

end Cert.Gine

end
-- ==== Proof.RefLayers.lean ====
/-
  The reference's two layers, read at an entry.

  The reference computes the messages as  max(x[src] + (attr · We + be), 0)  over all 640000 edges at once and the
  embeddings as  max((1 · x + agg) · W1 + b1, 0) · W2 + b2  over all 40000 nodes at once. Entry by entry these are the
  message array of the gathered rows (`msg_eq`) and the embedding array of x and the aggregate (`emb_eq`): a product
  with a bias row added is a linear layer on each row, and the factor 1 in front of x changes nothing on the extended
  reals.
-/
import proofs.«116407_j86878598463719_1_alg».proof.Proof.Gen.ReferenceIdeal.Read
import proofs.«116407_j86878598463719_1_alg».proof.Proof.Spec
import proofs.«116407_j86878598463719_1_alg».proof.Proof.LibDense
import proofs.«116407_j86878598463719_1_alg».proof.Proof.Consts
import Idealize.ShloMosaic.Lib.Pipeline.Value
import Idealize.ShloMosaic.Lib.ValueLayout

set_option maxRecDepth 16384

noncomputable section

open scoped BigOperators
open Idealize.ShloMosaic Idealize.ShloMosaic.ValueIdx

namespace Cert.ReferenceIdeal.Layers

open Cert.ReferenceIdeal Cert.ReferenceIdeal.Gen Cert.ReferenceIdeal.Read

/-- The reference's messages are the message array of the gathered node rows. -/
theorem msg_eq (x0 : (⟨S40000x128, .f32⟩ : BufTy).Contents (Elt Ideal)) (x1 : (⟨S2x640000, .i32⟩ : BufTy).Contents (Elt Ideal)) (x2 : (⟨S640000x64, .f32⟩ : BufTy).Contents (Elt Ideal))
    (x5 : (⟨S64x128, .f32⟩ : BufTy).Contents (Elt Ideal)) (x6 : (⟨S128, .f32⟩ : BufTy).Contents (Elt Ideal)) :
    val_main_v16 (F := Ideal) x0 x1 x2 x5 x6
      = Gine.msgArr (R := 640000) (val_main_v14 (F := Ideal) x0 x1) x2 x5 (fun k => x6 (ix1 k)) := by
  funext i
  obtain ⟨r, c, rfl⟩ : ∃ (r : Fin 640000) (c : Fin 128), i = ix2 r c := ⟨i 0, i 1, eq_ix2 i⟩
  rw [Gine.msgArr_apply]
  unfold val_main_v16 val_main_v15 val_main_v7 val_main_v6 val_main_v5 val_main_v4 val_main_call0_v0 val_main_call0_cst
  rw [Dense.host_relu_apply, addf_apply,
    Dense.host_affine_apply (R := 640000) (K := 64) (C := 128) dot_S640000x64_S64x128_S640000x128_1_0_0_1_n_n rfl rfl rfl rfl rfl rfl]
  rfl

/-- The reference's embeddings are the embedding array of the node rows and the aggregate. -/
theorem emb_eq (x0 : (⟨S40000x128, .f32⟩ : BufTy).Contents (Elt Ideal)) (x1 : (⟨S2x640000, .i32⟩ : BufTy).Contents (Elt Ideal)) (x2 : (⟨S640000x64, .f32⟩ : BufTy).Contents (Elt Ideal))
    (x5 : (⟨S64x128, .f32⟩ : BufTy).Contents (Elt Ideal)) (x6 : (⟨S128, .f32⟩ : BufTy).Contents (Elt Ideal))
    (x7 : (⟨S128x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) :
    val_main_v31 (F := Ideal) x0 x1 x2 x5 x6 x7 x8 x9 x10
      = Gine.embArr (R := 40000) x0 (val_main_v19 (F := Ideal) x0 x1 x2 x5 x6) x7 (fun j => x8 (ix1 j)) x9
          (fun j => x10 (ix1 j)) := by
  funext i
  obtain ⟨r, c, rfl⟩ : ∃ (r : Fin 40000) (c : Fin 256), i = ix2 r c := ⟨i 0, i 1, eq_ix2 i⟩
  rw [Gine.embArr_apply]
  unfold val_main_v31 val_main_v30 val_main_v29 val_main_v28
  rw [Dense.host_affine_apply (R := 40000) (K := 256) (C := 256) dot_S40000x256_S256x256_S40000x256_1_0_0_1_n_n rfl rfl rfl rfl rfl rfl]
  -- the hidden row: the first layer of the row 1 · x_r + agg_r, floored at zero
  have e : (fun j : Fin 256 => val_main_v27 (F := Ideal) x0 x1 x2 x5 x6 x7 x8 (ix2 r j))
      = fun j => max (Gine.lin x7 (fun j => x8 (ix1 j))
          (fun k => x0 (ix2 r k) + val_main_v19 (F := Ideal) x0 x1 x2 x5 x6 (ix2 r k)) j) 0 := by
    funext j
    unfold val_main_v27 val_main_v26 val_main_v25 val_main_v24 val_main_v23 val_main_call1_v0 val_main_call1_cst
    rw [Dense.host_relu_apply,
      Dense.host_affine_apply (R := 40000) (K := 128) (C := 256) dot_S40000x128_S128x256_S40000x256_1_0_0_1_n_n rfl rfl rfl rfl rfl rfl]
    have e2 : (fun k : Fin 128 => val_main_v22 (F := Ideal) x0 x1 x2 x5 x6 (ix2 r k))
        = fun k => x0 (ix2 r k) + val_main_v19 (F := Ideal) x0 x1 x2 x5 x6 (ix2 r k) := by
      funext k
      unfold val_main_v22 val_main_v21 val_main_v20 val_main_cst_1
      rw [addf_apply, mulf_apply]
      have h1 : broadcastInDim S40000x128 ![] bcast_S_S40000x128 (constant (F := Ideal) S_ .f32 0x3F800000#32) (ix2 r k) = 1 := by
        rw [broadcastInDim_apply ![] bcast_S_S40000x128 _ (ix2 r k) ix0 (fun a => a.elim0), constant_apply, Gine.ofBits_one]
      rw [h1, one_mul]
    rw [e2]
    rfl
  rw [e]
  rfl

end Cert.ReferenceIdeal.Layers

end
-- ==== Proof.RefLoss.lean ====
/-
  The reference's loss, read stage by stage.

  From its embedding array the reference takes row 0 as the centre, gathers the positive and the negative rows, scales
  each row (and the threshold row) to unit length, sums the products of the centre with every row, averages, and
  combines the means with the threshold score through the logistic function — spelt 1 / (1 + e^(-x)) — and the
  logarithm. Stage by stage, at an entry: a scaled row is `Gine.unitRow` of the row (`cen_eq`, `pos_eq`, `neg_eq`,
  `thr_eq`), a score is a dot product (`posScore_eq`, `negScore_eq`, `thrScore_eq`), a mean is `Gine.meanScore`
  (`posMean_eq`, `negMean_eq`), and the result is `Gine.lossVal` (`loss_eq`): sums from the zero word, a mean over one
  entry, divisions by one and  0 - a = -a  are the only algebra.
-/
import proofs.«116407_j86878598463719_1_alg».proof.Proof.Gen.ReferenceIdeal.Read
import proofs.«116407_j86878598463719_1_alg».proof.Proof.Spec
import proofs.«116407_j86878598463719_1_alg».proof.Proof.Consts
import Idealize.ShloMosaic.Lib.Pipeline.Value
import Idealize.ShloMosaic.Lib.ValueLayout

set_option maxRecDepth 16384

noncomputable section

open scoped BigOperators
open Idealize.ShloMosaic Idealize.ShloMosaic.ValueIdx

namespace Cert.ReferenceIdeal.LossRead

open Cert.ReferenceIdeal Cert.ReferenceIdeal.Gen Cert.ReferenceIdeal.Read

/-- A sum over the indices of a vector is the sum over its one coordinate. -/
theorem sum_idx1 {M : Type*} [AddCommMonoid M] {n : ℕ} (f : (⟨1, ![n]⟩ : Shape).Idx → M) :
    ∑ j, f j = ∑ k : Fin n, f (ix1 k) :=
  Fintype.sum_equiv ⟨fun j => j 0, ix1, fun j => (eq_ix1 j).symm, fun _ => rfl⟩ _ _ fun j => congrArg f (eq_ix1 j)

variable (x0 : (⟨S40000x128, .f32⟩ : BufTy).Contents (Elt Ideal)) (x1 : (⟨S2x640000, .i32⟩ : BufTy).Contents (Elt Ideal)) (x2 : (⟨S640000x64, .f32⟩ : BufTy).Contents (Elt Ideal))
    (x3 x4 : (⟨S2048, .i32⟩ : BufTy).Contents (Elt Ideal)) (x5 : (⟨S64x128, .f32⟩ : BufTy).Contents (Elt Ideal)) (x6 : (⟨S128, .f32⟩ : BufTy).Contents (Elt Ideal))
    (x7 : (⟨S128x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal))
    (x11 : (⟨S1x256, .f32⟩ : BufTy).Contents (Elt Ideal))

/-- The reference's embedding array, its positive rows and its negative rows, unopened. -/
abbrev E : (⟨S40000x256, .f32⟩ : BufTy).Contents (Elt Ideal) := val_main_v31 (F := Ideal) x0 x1 x2 x5 x6 x7 x8 x9 x10
abbrev P : (⟨S2048x256, .f32⟩ : BufTy).Contents (Elt Ideal) := val_main_v45 (F := Ideal) x0 x1 x2 x3 x5 x6 x7 x8 x9 x10
abbrev N : (⟨S2048x256, .f32⟩ : BufTy).Contents (Elt Ideal) := val_main_v57 (F := Ideal) x0 x1 x2 x4 x5 x6 x7 x8 x9 x10

/-- The centre row before scaling is embedding row 0. -/
theorem row0 (k : Fin 256) : val_main_v33 (F := Ideal) x0 x1 x2 x5 x6 x7 x8 x9 x10 (ix1 k) = E x0 x1 x2 x5 x6 x7 x8 x9 x10 (ix2 (0 : Fin 40000) k) := by
  rw [val_main_v33_apply, val_main_v32_apply]
  congr 1
  funext a
  apply Fin.ext
  match a with
  | ⟨0, _⟩ => rfl
  | ⟨1, _⟩ => show k.val % 256 = k.val; exact Nat.mod_eq_of_lt k.isLt

/-- A row over its length floored at ε, as the reference spells it entry by entry. -/
theorem unit_form (v : Fin 256 → Ideal .f32) (j : Fin 256) :
    FloatOps.hostDivf (v j) (FloatOps.maximumf (FloatOps.hostUnary .sqrt
        (FloatOps.ofBits .f32 0x00000000#32 + ∑ k : Fin 256, FloatOps.mulf (v k) (v k)))
        (FloatOps.ofBits .f32 0x2B8CBCCC#32)) = Gine.unitRow v j := by
  show Ideal.div (v j) (max (Ideal.sqrt (Ideal.ofBits .f32 0x00000000#32 + ∑ k : Fin 256, v k * v k))
    (Ideal.ofBits .f32 0x2B8CBCCC#32)) = _
  rw [Ideal.ofBits_zero_f32, zero_add]
  rfl

/-- A sum of products from the zero word is the dot product. -/
theorem dot_form (a b : Fin 256 → Ideal .f32) :
    FloatOps.ofBits (F := Ideal) .f32 0x00000000#32 + ∑ k : Fin 256, FloatOps.mulf (a k) (b k) = Gine.dot a b := by
  show Ideal.ofBits .f32 0x00000000#32 + ∑ k : Fin 256, a k * b k = _
  rw [Ideal.ofBits_zero_f32, zero_add]
  rfl

/-- One term of the loss as the reference spells it — the logistic function written out as 1 / (1 + e^(-x)), the
    floor on the left of the maximum, a sum over one entry from zero, divisions by one — is the logarithm of the
    floored logistic value. -/
theorem term_form (d : Ideal .f32) :
    FloatOps.hostDivf (F := Ideal) (φ := .f32)
      (FloatOps.ofBits .f32 0x00000000#32 + FloatOps.hostUnary .log (FloatOps.maximumf (FloatOps.ofBits .f32 0x2B8CBCCC#32)
        (FloatOps.hostDivf (FloatOps.ofBits .f32 0x3F800000#32) (FloatOps.addf (FloatOps.ofBits .f32 0x3F800000#32)
          (FloatOps.hostUnary .exp (FloatOps.hostNegf (FloatOps.hostDivf d (FloatOps.ofBits .f32 0x3F800000#32))))))))
      (FloatOps.ofBits .f32 0x3F800000#32)
    = Ideal.log (max (Ideal.logistic (Ideal.div d Gine.oneW)) Gine.epsW) := by
  show Ideal.div (Ideal.ofBits .f32 0x00000000#32 + Ideal.log (max (Ideal.ofBits .f32 0x2B8CBCCC#32)
      (Ideal.div (Ideal.ofBits .f32 0x3F800000#32) (Ideal.ofBits .f32 0x3F800000#32
        + Ideal.exp (-(Ideal.div d (Ideal.ofBits .f32 0x3F800000#32)))))))
    (Ideal.ofBits .f32 0x3F800000#32) = _
  rw [Ideal.ofBits_zero_f32, zero_add, Gine.ofBits_one, Gine.div_one, Gine.div_one, max_comm]
  unfold Gine.oneW Gine.epsW Ideal.logistic
  rw [Gine.ofBits_one, Gine.div_one]

/-- The centre row scaled to unit length. -/
theorem cen_eq (j : Fin 256) :
    val_main_v38 (F := Ideal) x0 x1 x2 x5 x6 x7 x8 x9 x10 (ix1 j) = Gine.unitRow (fun k => E x0 x1 x2 x5 x6 x7 x8 x9 x10 (ix2 (0 : Fin 40000) k)) j := by
  rw [val_main_v38_apply, val_main_v37_apply, val_main_v36_apply, val_main_v34_apply, val_main_call2_v2_apply,
    val_main_call2_v1_apply, val_main_v35_apply, sum_idx1]
  simp only [val_main_call2_v0_apply, row0, val_main_call2_cst_apply, val_main_cst_2_apply]
  exact unit_form (fun k => E x0 x1 x2 x5 x6 x7 x8 x9 x10 (ix2 (0 : Fin 40000) k)) j

/-- The positive rows scaled to unit length. -/
theorem pos_eq (i : Fin 2048) (j : Fin 256) :
    val_main_v50 (F := Ideal) x0 x1 x2 x3 x5 x6 x7 x8 x9 x10 (ix2 i j) = Gine.unitRow (fun k => P x0 x1 x2 x3 x5 x6 x7 x8 x9 x10 (ix2 i k)) j := by
  rw [val_main_v50_apply, val_main_v49_apply, val_main_v48_apply, val_main_v46_apply, val_main_call3_v2_apply,
    val_main_call3_v1_apply, val_main_v47_apply]
  have hidx : ∀ k : Fin 256, idx_main_call3_v1 (idx_main_call3_v2 (idx_main_v49 (ix2 i j))) k = ix2 i k :=
    fun k => funext fun a => match a with | ⟨0, _⟩ => rfl | ⟨1, _⟩ => rfl
  simp only [val_main_call3_v0_apply, val_main_call3_cst_apply, val_main_cst_5_apply, hidx]
  exact unit_form (fun k => P x0 x1 x2 x3 x5 x6 x7 x8 x9 x10 (ix2 i k)) j

/-- The negative rows scaled to unit length. -/
theorem neg_eq (i : Fin 2048) (j : Fin 256) :
    val_main_v62 (F := Ideal) x0 x1 x2 x4 x5 x6 x7 x8 x9 x10 (ix2 i j) = Gine.unitRow (fun k => N x0 x1 x2 x4 x5 x6 x7 x8 x9 x10 (ix2 i k)) j := by
  rw [val_main_v62_apply, val_main_v61_apply, val_main_v60_apply, val_main_v58_apply, val_main_call4_v2_apply,
    val_main_call4_v1_apply, val_main_v59_apply]
  have hidx : ∀ k : Fin 256, idx_main_call4_v1 (idx_main_call4_v2 (idx_main_v61 (ix2 i j))) k = ix2 i k :=
    fun k => funext fun a => match a with | ⟨0, _⟩ => rfl | ⟨1, _⟩ => rfl
  simp only [val_main_call4_v0_apply, val_main_call4_cst_apply, val_main_cst_8_apply, hidx]
  exact unit_form (fun k => N x0 x1 x2 x4 x5 x6 x7 x8 x9 x10 (ix2 i k)) j

/-- The threshold row scaled to unit length. -/
theorem thr_eq (j : Fin 256) :
    val_main_v67 (F := Ideal) x11 (ix2 (0 : Fin 1) j) = Gine.unitRow (fun k => x11 (ix2 (0 : Fin 1) k)) j := by
  rw [val_main_v67_apply, val_main_v66_apply, val_main_v65_apply, val_main_v63_apply, val_main_call5_v2_apply,
    val_main_call5_v1_apply, val_main_v64_apply]
  have hidx : ∀ k : Fin 256, idx_main_call5_v1 (idx_main_call5_v2 (idx_main_v66 (ix2 (0 : Fin 1) j))) k = ix2 (0 : Fin 1) k :=
    fun k => funext fun a => match a with | ⟨0, _⟩ => rfl | ⟨1, _⟩ => rfl
  simp only [val_main_call5_v0_apply, val_main_call5_cst_apply, val_main_cst_9_apply, hidx]
  exact unit_form (fun k => x11 (ix2 (0 : Fin 1) k)) j

/-- The centre's score against positive row i. -/
theorem posScore_eq (i : Fin 2048) :
    val_main_v71 (F := Ideal) x0 x1 x2 x3 x5 x6 x7 x8 x9 x10 (ix1 i) = Gine.dot (Gine.unitRow (fun k => E x0 x1 x2 x5 x6 x7 x8 x9 x10 (ix2 (0 : Fin 40000) k))) (Gine.unitRow (fun k => P x0 x1 x2 x3 x5 x6 x7 x8 x9 x10 (ix2 i k))) := by
  rw [val_main_v71_apply]
  have h1 : ∀ k : Fin 256, idx_main_v71 (ix1 i) k = ix2 i k :=
    fun k => funext fun a => match a with | ⟨0, _⟩ => rfl | ⟨1, _⟩ => rfl
  have h2 : ∀ k : Fin 256, idx_main_v68 (idx_main_v69 (ix2 i k)) = ix1 k :=
    fun k => funext fun a => match a with | ⟨0, _⟩ => rfl
  simp only [val_main_v70_apply, val_main_v69_apply, val_main_v68_apply, val_main_cst_10_apply, h1, h2, cen_eq, pos_eq]
  exact dot_form _ _

/-- The centre's score against negative row i. -/
theorem negScore_eq (i : Fin 2048) :
    val_main_v77 (F := Ideal) x0 x1 x2 x4 x5 x6 x7 x8 x9 x10 (ix1 i) = Gine.dot (Gine.unitRow (fun k => E x0 x1 x2 x5 x6 x7 x8 x9 x10 (ix2 (0 : Fin 40000) k))) (Gine.unitRow (fun k => N x0 x1 x2 x4 x5 x6 x7 x8 x9 x10 (ix2 i k))) := by
  rw [val_main_v77_apply]
  have h1 : ∀ k : Fin 256, idx_main_v77 (ix1 i) k = ix2 i k :=
    fun k => funext fun a => match a with | ⟨0, _⟩ => rfl | ⟨1, _⟩ => rfl
  have h2 : ∀ k : Fin 256, idx_main_v74 (idx_main_v75 (ix2 i k)) = ix1 k :=
    fun k => funext fun a => match a with | ⟨0, _⟩ => rfl
  simp only [val_main_v76_apply, val_main_v75_apply, val_main_v74_apply, val_main_cst_13_apply, h1, h2, cen_eq, neg_eq]
  exact dot_form _ _

/-- The centre's score against the threshold row. -/
theorem thrScore_eq (i : S1.Idx) :
    val_main_v82 (F := Ideal) x0 x1 x2 x5 x6 x7 x8 x9 x10 x11 i = Gine.dot (Gine.unitRow (fun k => E x0 x1 x2 x5 x6 x7 x8 x9 x10 (ix2 (0 : Fin 40000) k))) (Gine.unitRow (fun k => x11 (ix2 (0 : Fin 1) k))) := by
  rw [val_main_v82_apply]
  have h1 : ∀ k : Fin 256, idx_main_v82 i k = ix2 (0 : Fin 1) k :=
    fun k => funext fun a => match a with
      | ⟨0, _⟩ => Fin.ext (by have h := (i 0).isLt; show (i 0).val = 0; exact Nat.lt_one_iff.mp h)
      | ⟨1, _⟩ => rfl
  have h2 : ∀ k : Fin 256, idx_main_v80 (ix2 (0 : Fin 1) k) = ix1 k :=
    fun k => funext fun a => match a with | ⟨0, _⟩ => rfl
  simp only [val_main_v81_apply, val_main_v80_apply, val_main_cst_16_apply, h1, h2, cen_eq, thr_eq]
  exact dot_form _ _

/-- The mean positive score. -/
theorem posMean_eq (i : S_.Idx) :
    val_main_v73 (F := Ideal) x0 x1 x2 x3 x5 x6 x7 x8 x9 x10 i = Gine.meanScore (Gine.unitRow (fun k => E x0 x1 x2 x5 x6 x7 x8 x9 x10 (ix2 (0 : Fin 40000) k))) (fun i k => P x0 x1 x2 x3 x5 x6 x7 x8 x9 x10 (ix2 i k)) := by
  rw [val_main_v73_apply, val_main_v72_apply, sum_idx1]
  simp only [posScore_eq, val_main_cst_11_apply, val_main_cst_12_apply]
  show Ideal.div (Ideal.ofBits .f32 0x00000000#32 + _) (Ideal.ofBits .f32 0x45000000#32) = _
  rw [Ideal.ofBits_zero_f32, zero_add]
  rfl

/-- The mean negative score. -/
theorem negMean_eq (i : S_.Idx) :
    val_main_v79 (F := Ideal) x0 x1 x2 x4 x5 x6 x7 x8 x9 x10 i = Gine.meanScore (Gine.unitRow (fun k => E x0 x1 x2 x5 x6 x7 x8 x9 x10 (ix2 (0 : Fin 40000) k))) (fun i k => N x0 x1 x2 x4 x5 x6 x7 x8 x9 x10 (ix2 i k)) := by
  rw [val_main_v79_apply, val_main_v78_apply, sum_idx1]
  simp only [negScore_eq, val_main_cst_14_apply, val_main_cst_15_apply]
  show Ideal.div (Ideal.ofBits .f32 0x00000000#32 + _) (Ideal.ofBits .f32 0x45000000#32) = _
  rw [Ideal.ofBits_zero_f32, zero_add]
  rfl

/-- The reference's result is the loss of embedding row 0, its sampled rows and the threshold row. -/
theorem loss_eq (i : S_.Idx) :
    val_main_v112 (F := Ideal) x0 x1 x2 x3 x4 x5 x6 x7 x8 x9 x10 x11 i
      = Gine.lossVal (fun k => E x0 x1 x2 x5 x6 x7 x8 x9 x10 (ix2 (0 : Fin 40000) k)) (fun i k => P x0 x1 x2 x3 x5 x6 x7 x8 x9 x10 (ix2 i k)) (fun i k => N x0 x1 x2 x4 x5 x6 x7 x8 x9 x10 (ix2 i k)) (fun k => x11 (ix2 (0 : Fin 1) k)) := by
  rw [val_main_v112_apply, val_main_v111_apply, val_main_v110_apply, val_main_v96_apply, val_main_v109_apply,
    val_main_v95_apply, sum_idx1, sum_idx1, Fin.sum_univ_one, Fin.sum_univ_one]
  simp only [val_main_v94_apply, val_main_v93_apply, val_main_v92_apply, val_main_v91_apply, val_main_v90_apply,
    val_main_v89_apply, val_main_v88_apply, val_main_v87_apply, val_main_v86_apply, val_main_v85_apply, val_main_v84_apply,
    val_main_v83_apply, val_main_call6_v1_apply, val_main_call6_v0_apply,
    val_main_v108_apply, val_main_v107_apply, val_main_v106_apply, val_main_v105_apply, val_main_v104_apply,
    val_main_v103_apply, val_main_v102_apply, val_main_v101_apply, val_main_v100_apply, val_main_v99_apply, val_main_v98_apply,
    val_main_v97_apply, val_main_call7_v1_apply, val_main_call7_v0_apply,
    posMean_eq, negMean_eq, thrScore_eq,
    val_main_cst_17_apply, val_main_cst_18_apply, val_main_cst_19_apply, val_main_cst_20_apply, val_main_cst_21_apply,
    val_main_cst_22_apply, val_main_cst_23_apply, val_main_cst_24_apply, val_main_cst_25_apply, val_main_cst_26_apply,
    val_main_cst_27_apply, val_main_cst_28_apply]
  rw [term_form, term_form]
  unfold Gine.lossVal
  rw [zero_sub]
  rfl

end Cert.ReferenceIdeal.LossRead

end
-- ==== Proof.RefValue.lean ====
/-
  The reference program's result as a function of its arguments.

  Its messages are the message array of the gathered node rows and its embeddings the embedding array of the node rows
  and the scatter-added messages; its gather, scatter-add and index preparation are the host operations the shared
  description names, so the embeddings are `Gine.embOf` of the arguments and the sampled rows `Gine.rowsOf` of them; its
  loss is `Gine.lossVal` of embedding row 0, those rows and the threshold row. The result is `Gine.total` of the twelve
  arguments (`total_eq`).
-/
import proofs.«116407_j86878598463719_1_alg».proof.Proof.Gen.ReferenceIdeal.Read
import proofs.«116407_j86878598463719_1_alg».proof.Proof.RefLayers
import proofs.«116407_j86878598463719_1_alg».proof.Proof.RefLoss
import proofs.«116407_j86878598463719_1_alg».proof.Proof.Shared

set_option maxRecDepth 16384

noncomputable section

open scoped BigOperators
open Idealize.ShloMosaic Idealize.ShloMosaic.ValueIdx

namespace Cert.ReferenceIdeal.Whole

open Cert.ReferenceIdeal Cert.ReferenceIdeal.Gen Cert.ReferenceIdeal.Read

variable (x0 : (⟨S40000x128, .f32⟩ : BufTy).Contents (Elt Ideal)) (x1 : (⟨S2x640000, .i32⟩ : BufTy).Contents (Elt Ideal)) (x2 : (⟨S640000x64, .f32⟩ : BufTy).Contents (Elt Ideal))
    (x3 x4 : (⟨S2048, .i32⟩ : BufTy).Contents (Elt Ideal)) (x5 : (⟨S64x128, .f32⟩ : BufTy).Contents (Elt Ideal)) (x6 : (⟨S128, .f32⟩ : BufTy).Contents (Elt Ideal))
    (x7 : (⟨S128x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal))
    (x11 : (⟨S1x256, .f32⟩ : BufTy).Contents (Elt Ideal))

/-- The reference's aggregate is the scatter-add of the message array of the arguments. -/
theorem agg_eq : val_main_v19 (F := Ideal) x0 x1 x2 x5 x6 = Gine.aggOf x1 (Gine.msgOf x0 x1 x2 x5 x6) := by
  unfold val_main_v19
  rw [Layers.msg_eq]
  rfl

/-- The reference's embeddings are the embedding array of the arguments. -/
theorem emb_eq : val_main_v31 (F := Ideal) x0 x1 x2 x5 x6 x7 x8 x9 x10 = Gine.embOf x0 x1 x2 x5 x6 x7 x8 x9 x10 := by
  rw [Layers.emb_eq, agg_eq]
  rfl

/-- The reference's positive and negative rows are the embedding rows gathered at the samples. -/
theorem pos_eq : val_main_v45 (F := Ideal) x0 x1 x2 x3 x5 x6 x7 x8 x9 x10 = Gine.rowsOf (Gine.embOf x0 x1 x2 x5 x6 x7 x8 x9 x10) x3 := by
  unfold val_main_v45
  rw [emb_eq]
  rfl
theorem neg_eq : val_main_v57 (F := Ideal) x0 x1 x2 x4 x5 x6 x7 x8 x9 x10 = Gine.rowsOf (Gine.embOf x0 x1 x2 x5 x6 x7 x8 x9 x10) x4 := by
  unfold val_main_v57
  rw [emb_eq]
  rfl

/-- The reference's result is the whole computation of its arguments. -/
theorem total_eq : val_main_v112 (F := Ideal) x0 x1 x2 x3 x4 x5 x6 x7 x8 x9 x10 x11 = fun _ => Gine.total x0 x1 x2 x3 x4 x5 x6 x7 x8 x9 x10 x11 := by
  funext i
  rw [LossRead.loss_eq]
  unfold LossRead.E LossRead.P LossRead.N
  rw [emb_eq, pos_eq, neg_eq]
  rfl

end Cert.ReferenceIdeal.Whole

end
-- ==== Proof.lean ====
/-
  The kernel — three Pallas regions (edge messages, node embeddings, contrastive loss) among host gathers and a
  scatter-add — against its jnp reference, over the extended reals.

  Both programs compute one function of the twelve arguments, `Gine.total`: the message of an edge is
  max(x_src + (attr · We + be), 0); the messages are scatter-added at the targets; a node's embedding is the two-layer
  perceptron of x + agg; the loss compares the unit-length centre row's mean scores against the sampled positive and
  negative rows with its score against the threshold row, through the logistic function and the logarithm. The kernel's
  run ends with its result at that function of the arguments (the launch of the generated frame, with the result kept,
  then the value of each region read off its blocks and each host stretch read operation by operation); the reference's
  generated run ends at the same function (its dense layers and its loss read entry by entry). The reference's factor
  1 · x, its mean over one entry, its divisions by one and its logistic function written out as 1 / (1 + e^(-x)) all
  denote what the kernel's spelling denotes on the extended reals, infinite values included, so no finiteness of the
  inputs is used. The three frames are the generated ones; no operation was rewritten by the idealization, so
  `preserves` asks nothing.
-/
import proofs.«116407_j86878598463719_1_alg».proof.Defs
import proofs.«116407_j86878598463719_1_alg».proof.Proof.Gen.Kernel
import proofs.«116407_j86878598463719_1_alg».proof.Proof.Gen.Kernel.Frame
import proofs.«116407_j86878598463719_1_alg».proof.Proof.Gen.KernelIdeal
import proofs.«116407_j86878598463719_1_alg».proof.Proof.Gen.KernelIdeal.Frame
import proofs.«116407_j86878598463719_1_alg».proof.Proof.Gen.ReferenceIdeal
import proofs.«116407_j86878598463719_1_alg».proof.Proof.Gen.ReferenceIdeal.Run
import proofs.«116407_j86878598463719_1_alg».proof.Proof.Gen.ReferenceIdeal.Read
import proofs.«116407_j86878598463719_1_alg».proof.Proof.Gen.Pre_finite_inputs
import proofs.«116407_j86878598463719_1_alg».proof.Proof.KernelRun
import proofs.«116407_j86878598463719_1_alg».proof.Proof.KernelValue
import proofs.«116407_j86878598463719_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `Gine.total` of arguments that agree. -/
theorem algebraic : Cert.algebraic_KernelIdeal_ReferenceIdeal := by
  intro m ρ m' ρ' _ hagree
  refine ⟨fun c => fun _ => Cert.Gine.total (Cert.KernelIdeal.Whole.a0 m c) (Cert.KernelIdeal.Whole.a1 m c) (Cert.KernelIdeal.Whole.a2 m c) (Cert.KernelIdeal.Whole.a3 m c) (Cert.KernelIdeal.Whole.a4 m c) (Cert.KernelIdeal.Whole.a5 m c) (Cert.KernelIdeal.Whole.a6 m c) (Cert.KernelIdeal.Whole.a7 m c) (Cert.KernelIdeal.Whole.a8 m c) (Cert.KernelIdeal.Whole.a9 m c) (Cert.KernelIdeal.Whole.a10 m c) (Cert.KernelIdeal.Whole.a11 m c), ?_, ?_⟩
  · exact (θ_run Cert.KernelIdeal.defs _ _).mono
      (fun r h c => ⟨(h c).1.trans (Cert.KernelIdeal.Whole.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v112_eq, Cert.ReferenceIdeal.Whole.total_eq]
    obtain ⟨h0, h1, h2, h3, h4, h5, h6, h7, h8, h9, h10, h11⟩ := hagree c
    rw [h0, h1, h2, h3, h4, h5, h6, h7, h8, h9, h10, h11]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
